-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 94
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S_, .f32⟩
  | .hbm, ⟨82, _⟩ => ⟨S128x128, .f32⟩
  | .hbm, ⟨83, _⟩ => ⟨S_, .i32⟩
  | .hbm, ⟨84, _⟩ => ⟨S1, .i32⟩
  | .hbm, ⟨85, _⟩ => ⟨S128x128, .f32⟩
  | .hbm, ⟨86, _⟩ => ⟨S_, .f32⟩
  | .hbm, ⟨87, _⟩ => ⟨S1x128, .f32⟩
  | .hbm, ⟨88, _⟩ => ⟨S_, .i32⟩
  | .hbm, ⟨89, _⟩ => ⟨S1, .i32⟩
  | .hbm, ⟨90, _⟩ => ⟨S1x128, .f32⟩
  | .hbm, ⟨91, _⟩ => ⟨S50000x128, .f32⟩
  | .hbm, ⟨92, _⟩ => ⟨S50000x1, .f32⟩
  | .hbm, ⟨93, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S128x128_S128x128 : S128x128.ShapeCasts S128x128
  slices_S50000x128_S50000x1_0_0 : S50000x128.Slices ![0, 0] S50000x1
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S128x128_S1_S128x1_01_n_1_0_wf : ScatterDims.WF S128x128 S1 S128x1 [0, 1] [] [1] 0
  scatter_S1x128_S1_S1_0_1_1_0_wf : ScatterDims.WF S1x128 S1 S1 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S1x128_S1_S1_0_1_1_0 : ScatterDims S1x128 S1 S1 where
  updateWindowDims := [0]
  insertedWindowDims := [1]
  scatterDimsToOperandDims := [1]
  indexVectorDim := 0
  wf := scatter_S1x128_S1_S1_0_1_1_0_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S50000x1, .f32⟩
  | .hbm, ⟨117, _⟩ => ⟨S1x1, .f32⟩
  | .hbm, ⟨118, _⟩ => ⟨S50000x1, .f32⟩
  | .hbm, ⟨119, _⟩ => ⟨S50000x1, .f32⟩
  | .hbm, ⟨120, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics of one graph-convolution layer and of the classifier head, as functions of whole arrays read index by
  index over the extended reals, and the one algebraic law the certificate needs.

  A layer takes the aggregated neighbour means `mean`, the node features `x` (both 50000 × 128), two 128 × 128 weight
  matrices and a 1 × 128 bias row, and gives at node `r`, feature `q`

      (Σₖ mean[r,k] · wn[k,q]) + (Σₖ x[r,k] · wr[k,q]) + b[0,q],

  clipped below at 0 for the two inner layers. The classifier head is one such product with a bias row. Rows of the result
  depend only on the same row of `mean` and `x`, which is why a tiling of the nodes into row blocks computes the same array.

  The law: dividing by `max d 1` is multiplying by its reciprocal, on every extended real, because `max d 1 ≥ 1` is
  never zero. (The two programs differ in exactly this: one forms `1 / max(deg, 1)` once and multiplies, the other divides.)
-/
import Idealize.ShloMosaic.PureOps.Ideal
import Idealize.ShloMosaic.Lib.ValueIdx

noncomputable section

namespace Cert.Sage

open Idealize.ShloMosaic

/-- Node features: 50000 nodes × 128 features. -/
abbrev Nodes : Shape := ⟨2, ![50000, 128]⟩
/-- A weight matrix: 128 × 128. -/
abbrev Wts : Shape := ⟨2, ![128, 128]⟩
/-- A bias row: 1 × 128. -/
abbrev Row : Shape := ⟨2, ![1, 128]⟩

/-- Entry `(r, k)` of a node array, for the node `r` of the output index `i`. -/
abbrev lix (i : Nodes.Idx) (k : Fin 128) : Nodes.Idx := fun a => match a with
  | ⟨0, _⟩ => ⟨(i 0).val, (i 0).isLt⟩
  | ⟨1, _⟩ => ⟨k.val, k.isLt⟩
/-- Entry `(k, q)` of a weight matrix, for the feature `q` of the output index `i`. -/
abbrev rix (i : Nodes.Idx) (k : Fin 128) : Wts.Idx := fun a => match a with
  | ⟨0, _⟩ => ⟨k.val, k.isLt⟩
  | ⟨1, _⟩ => ⟨(i 1).val, (i 1).isLt⟩
/-- Entry `(0, q)` of a bias row, for the feature `q` of the output index `i`. -/
abbrev bix (i : Nodes.Idx) : Row.Idx := fun a => match a with
  | ⟨0, _⟩ => ⟨0, Nat.one_pos⟩
  | ⟨1, _⟩ => ⟨(i 1).val, (i 1).isLt⟩

/-- One layer before the clip: two matrix products and the bias row. -/
def conv (mean x : Nodes.Idx → EReal) (wn wr : Wts.Idx → EReal) (b : Row.Idx → EReal) : Nodes.Idx → EReal := fun i =>
  (∑ k : Fin 128, mean (lix i k) * wn (rix i k)) + (∑ k : Fin 128, x (lix i k) * wr (rix i k)) + b (bix i)

/-- An inner layer: the same, clipped below at zero. -/
def convRelu (mean x : Nodes.Idx → EReal) (wn wr : Wts.Idx → EReal) (b : Row.Idx → EReal) : Nodes.Idx → EReal := fun i =>
  max (conv mean x wn wr b i) 0

/-- The classifier head over a 128-wide padded weight: one product and the bias row. -/
def head (h : Nodes.Idx → EReal) (w : Wts.Idx → EReal) (b : Row.Idx → EReal) : Nodes.Idx → EReal := fun i =>
  (∑ k : Fin 128, h (lix i k) * w (rix i k)) + b (bix i)

/-- Multiplying by the reciprocal of `max d 1` is dividing by it: `max d 1 ≥ 1 > 0` whatever `d` is, so the division
    is the product with the inverse, and `1 / y = y⁻¹`. -/
theorem mul_recip_max (s d : EReal) : s * Ideal.div 1 (max d 1) = Ideal.div s (max d 1) := by
  have h : max d 1 ≠ 0 := ne_of_gt (lt_of_lt_of_le zero_lt_one (le_max_right d 1))
  rw [Ideal.div, Ideal.div, if_neg h, if_neg h, one_mul]

end Cert.Sage

end
-- ==== Proof.BlockOps.lean ====
/-
  What one grid step computes, read at an index of its 2000 × 128 tile.

  Each kernel body loads a tile of the aggregated means and a tile of the node features (2000 rows each), the two
  128 × 128 weight matrices whole and the 1 × 128 bias row, multiplies on the matrix unit into a zero accumulator,
  adds, and (for the two inner layers) clips at zero. Over the extended reals the narrowing of the operands to
  bfloat16 is the identity and a product into a zero accumulator is the plain sum over the contracted axis, so the
  entry `(r, q)` of the stored tile is

      (Σₖ mean[r,k] · wn[k,q]) + (Σₖ x[r,k] · wr[k,q]) + b[0,q]        (clipped below at 0 where the body clips),

  and for the classifier head `(Σₖ h[r,k] · w[k,q]) + b[0,q]`.
-/
import proofs.«111139_j85126251807613_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.SL.Sem

/-- Entry `(r, k)` of a tile, for the row `r` of the tile index `j`. -/
abbrev lb (j : S2000x128.Idx) (k : Fin 128) : S2000x128.Idx := fun a => match a with
  | ⟨0, _⟩ => ⟨(j 0).val, (j 0).isLt⟩
  | ⟨1, _⟩ => ⟨k.val, k.isLt⟩
/-- Entry `(k, q)` of a weight matrix, for the column `q` of the tile index `j`. -/
abbrev rb (j : S2000x128.Idx) (k : Fin 128) : S128x128.Idx := fun a => match a with
  | ⟨0, _⟩ => ⟨k.val, k.isLt⟩
  | ⟨1, _⟩ => ⟨(j 1).val, (j 1).isLt⟩
/-- Entry `(0, q)` of the bias row, for the column `q` of the tile index `j`. -/
abbrev bb (j : S2000x128.Idx) : S1x128.Idx := fun a => match a with
  | ⟨0, _⟩ => ⟨0, Nat.one_pos⟩
  | ⟨1, _⟩ => ⟨(j 1).val, (j 1).isLt⟩

/-! ## The tile product's operand indices, axis by axis -/

theorem lhs_tile_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_tile_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_tile_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_tile_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile product into a zero accumulator, at `(r, q)`: the sum over `k` of `a[r,k] · w[k,q]`. -/
theorem tileProduct_apply {φ₁ φ₂ : FTy} (a : FVec Ideal S2000x128 φ₁) (w : FVec Ideal S128x128 φ₂) (j : S2000x128.Idx) :
    matmul dot_S2000x128_S128x128_S2000x128_1_0_0_1_n_n none a w (constant (F := Ideal) S2000x128 .f32 0x00000000#32) j
      = ∑ k : Fin 128, a (lb j k) * w (rb j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lb j k := funext fun a => Fin.ext (by
    match a with
    | ⟨0, _⟩ => exact lhs_tile_0 _ _
    | ⟨1, _⟩ => exact (lhs_tile_1 _ _).trans hk)
  have er : dot_S2000x128_S128x128_S2000x128_1_0_0_1_n_n.rhsIdx j ((ValueIdx.contrEquiv1 dot_S2000x128_S128x128_S2000x128_1_0_0_1_n_n 128 rfl rfl).symm k) = rb j k := funext fun a => Fin.ext (by
    match a with
    | ⟨0, _⟩ => exact (rhs_tile_0 _ _).trans hk
    | ⟨1, _⟩ => exact rhs_tile_1 _ _)
  rw [el, er]

/-- The bias row spread over the tile's rows, at `(r, q)`: `b[0,q]`. -/
theorem biasRow_apply (b : Vec Ideal S1x128 .f32) (j : S2000x128.Idx) :
    broadcastTo S2000x128 (shapeCast S1x128 b shapeCasts_S1x128_S1x128) broadcasts_S1x128_S2000x128 j = b (bb j) := by
  rw [shapeCast_self]
  exact broadcastTo_apply b broadcasts_S1x128_S2000x128 j (bb j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-! ## Each body's stored tile at an index -/

/-- The first layer's tile at `(r, q)`. -/
theorem pay0_apply (x0 x1 : Vec Ideal S2000x128 .f32) (x2 x3 : Vec Ideal S128x128 .f32) (x4 : Vec Ideal S1x128 .f32) (j : S2000x128.Idx) :
    k0_pay1 (F := Ideal) x0 x1 x2 x3 x4 j
      = max ((∑ k : Fin 128, x0 (lb j k) * x2 (rb j k)) + (∑ k : Fin 128, x1 (lb j k) * x3 (rb j k)) + x4 (bb j)) 0 := by
  unfold k0_pay1
  show max ((matmul _ none _ _ _ j + matmul _ none _ _ _ j) + broadcastTo S2000x128 _ _ j) (Ideal.ofBits .f32 0x00000000#32) = _
  rw [tileProduct_apply, tileProduct_apply, biasRow_apply, Ideal.ofBits_zero_f32, shapeCast_self]
  rfl

/-- The second layer's tile at `(r, q)`. -/
theorem pay1_apply (x0 x1 : Vec Ideal S2000x128 .f32) (x2 x3 : Vec Ideal S128x128 .f32) (x4 : Vec Ideal S1x128 .f32) (j : S2000x128.Idx) :
    k1_pay1 (F := Ideal) x0 x1 x2 x3 x4 j
      = max ((∑ k : Fin 128, x0 (lb j k) * x2 (rb j k)) + (∑ k : Fin 128, x1 (lb j k) * x3 (rb j k)) + x4 (bb j)) 0 := by
  unfold k1_pay1
  show max ((matmul _ none _ _ _ j + matmul _ none _ _ _ j) + broadcastTo S2000x128 _ _ j) (Ideal.ofBits .f32 0x00000000#32) = _
  rw [tileProduct_apply, tileProduct_apply, biasRow_apply, Ideal.ofBits_zero_f32, shapeCast_self, shapeCast_self]
  rfl

/-- The third layer's tile at `(r, q)`: no clip. -/
theorem pay2_apply (x0 x1 : Vec Ideal S2000x128 .f32) (x2 x3 : Vec Ideal S128x128 .f32) (x4 : Vec Ideal S1x128 .f32) (j : S2000x128.Idx) :
    k2_pay1 (F := Ideal) x0 x1 x2 x3 x4 j
      = (∑ k : Fin 128, x0 (lb j k) * x2 (rb j k)) + (∑ k : Fin 128, x1 (lb j k) * x3 (rb j k)) + x4 (bb j) := by
  unfold k2_pay1
  show (matmul _ none _ _ _ j + matmul _ none _ _ _ j) + broadcastTo S2000x128 _ _ j = _
  rw [tileProduct_apply, tileProduct_apply, biasRow_apply, shapeCast_self, shapeCast_self]
  rfl

/-- The classifier head's tile at `(r, q)`. -/
theorem pay3_apply (x0 : Vec Ideal S2000x128 .f32) (x1 : Vec Ideal S128x128 .f32) (x2 : Vec Ideal S1x128 .f32) (j : S2000x128.Idx) :
    k3_pay1 (F := Ideal) x0 x1 x2 j = (∑ k : Fin 128, x0 (lb j k) * x1 (rb j k)) + x2 (bb j) := by
  unfold k3_pay1
  show matmul _ none _ _ _ j + broadcastTo S2000x128 _ _ j = _
  rw [tileProduct_apply, biasRow_apply, shapeCast_self, shapeCast_self]
  rfl

end Cert.KernelIdeal.Block

end
-- ==== Proof.Layer0.lean ====
/-
  The first layer's region: after it the output array is the layer function of the region's operands.

  The grid has 25 points; point `t` reads rows `2000·t … 2000·t + 1999` of the aggregated means and of the node
  features, the two weight matrices and the bias row whole, and writes back the same rows of the output array. Each
  row of a layer depends only on the same row of its two node-array operands, so the tile written at point `t` is
  rows `2000·t …` of the whole-array layer function, and the 25 tiles cover all 50000 rows: after the region the
  output array IS that function of the arrays the region found at entry.
-/
import proofs.«111139_j85126251807613_1_alg».proof.Proof.Gen.KernelIdeal.Frame
import proofs.«111139_j85126251807613_1_alg».proof.Proof.Spec
import proofs.«111139_j85126251807613_1_alg».proof.Proof.BlockOps

set_option maxRecDepth 16384

noncomputable section

namespace Cert.KernelIdeal.Layer0

open Cert.KernelIdeal Cert.KernelIdeal.Gen Cert.KernelIdeal.Block Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The region's five operand arrays as it finds them, each at its literal type. -/
abbrev meanA (c : Dev nD) : FVec Ideal S50000x128 .f32 := V c main_v24
abbrev featA (c : Dev nD) : FVec Ideal S50000x128 .f32 := V c main_arg0
abbrev wnA (c : Dev nD) : FVec Ideal S128x128 .f32 := V c main_arg2
abbrev wrA (c : Dev nD) : FVec Ideal S128x128 .f32 := V c main_arg3
abbrev biasA (c : Dev nD) : FVec Ideal S1x128 .f32 := V c main_v25

/-- The layer's whole-array function of the arrays the region finds at entry. -/
abbrev whole (c : Dev nD) : FVec Ideal S50000x128 .f32 :=
  Cert.Sage.convRelu (meanA V c) (featA V c) (wnA V c) (wrA V c) (biasA V c)

/-- The printed index maps over the grid: the two tiled operands and the output move together, one block of rows per
    point; the weights and the bias row stay at block `(0, 0)`. -/
theorem blockIndices : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` writes back is rows `2000·t …` of the layer's whole-array function. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x128) zeroOffsets, View.ld_unit_zero (S := S1x128) zeroOffsets]
  obtain ⟨e50, e51, e00, e01, e10, e11, e20, e21, e30, e31, e40, e41⟩ := blockIndices t
  funext j
  show k0_pay1 (F := Ideal) (iblk0 V c 0 t) (iblk0 V c 1 t) (iblk0 V c 2 t) (iblk0 V c 3 t) (iblk0 V c 4 t) j = whole V c (((cfg0.win 5).blk t).view.emb j)
  refine (pay0_apply (iblk0 V c 0 t) (iblk0 V c 1 t) (iblk0 V c 2 t) (iblk0 V c 3 t) (iblk0 V c 4 t) j).trans ?_
  have hj0 : (j 0).val < 2000 := (j 0).isLt
  have hj1 : (j 1).val < 128 := (j 1).isLt
  have h0 : ∀ k : Fin 128, ((cfg0.win 0).blk t).view.emb (lb j k) = Cert.Sage.lix (((cfg0.win 5).blk t).view.emb j) k := fun k => by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have h1 : ∀ k : Fin 128, ((cfg0.win 1).blk t).view.emb (lb j k) = Cert.Sage.lix (((cfg0.win 5).blk t).view.emb j) k := fun k => by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  have h2 : ∀ k : Fin 128, ((cfg0.win 2).blk t).view.emb (rb j k) = Cert.Sage.rix (((cfg0.win 5).blk t).view.emb j) k := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have h3 : ∀ k : Fin 128, ((cfg0.win 3).blk t).view.emb (rb j k) = Cert.Sage.rix (((cfg0.win 5).blk t).view.emb j) k := fun k => by
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : ((cfg0.win 4).blk t).view.emb (bb j) = Cert.Sage.bix (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  have r0 : ∀ k : Fin 128, iblk0 V c 0 t (lb j k) = meanA V c (Cert.Sage.lix (((cfg0.win 5).blk t).view.emb j) k) :=
    fun k => congrArg (meanA V c) (h0 k)
  have r1 : ∀ k : Fin 128, iblk0 V c 1 t (lb j k) = featA V c (Cert.Sage.lix (((cfg0.win 5).blk t).view.emb j) k) :=
    fun k => congrArg (featA V c) (h1 k)
  have r2 : ∀ k : Fin 128, iblk0 V c 2 t (rb j k) = wnA V c (Cert.Sage.rix (((cfg0.win 5).blk t).view.emb j) k) :=
    fun k => congrArg (wnA V c) (h2 k)
  have r3 : ∀ k : Fin 128, iblk0 V c 3 t (rb j k) = wrA V c (Cert.Sage.rix (((cfg0.win 5).blk t).view.emb j) k) :=
    fun k => congrArg (wrA V c) (h3 k)
  have r4 : iblk0 V c 4 t (bb j) = biasA V c (Cert.Sage.bix (((cfg0.win 5).blk t).view.emb j)) :=
    congrArg (biasA V c) h4
  simp only [r0, r1, r2, r3, r4]
  rfl

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Row `r` of the output lies in the block of point `r / 2000`: the 25 blocks cover the array. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e50, e51, -⟩ := blockIndices t
  have e50' : win0_5.index t (0 : Fin 2) = (i 0).val / 2000 := e50
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the region the output array is the layer's function of the arrays found at entry. -/
theorem final (c : Dev nD) : (dat0 V c).arrAt 5 cfg0.N = whole V c :=
  (dat0 V c).arrAt_eq_of_cover 5 (whole V c) (fun t _ => flushed_eq V c t) covered

end Cert.KernelIdeal.Layer0

end
-- ==== Proof.Layer1.lean ====
/-
  The second layer's region: after it the output array is the layer function of the region's operands.

  The grid has 25 points; point `t` reads rows `2000·t … 2000·t + 1999` of the aggregated means and of the node
  features, the two weight matrices and the bias row whole, and writes back the same rows of the output array. Each
  row of a layer depends only on the same row of its two node-array operands, so the tile written at point `t` is
  rows `2000·t …` of the whole-array layer function, and the 25 tiles cover all 50000 rows: after the region the
  output array IS that function of the arrays the region found at entry.
-/
import proofs.«111139_j85126251807613_1_alg».proof.Proof.Gen.KernelIdeal.Frame
import proofs.«111139_j85126251807613_1_alg».proof.Proof.Spec
import proofs.«111139_j85126251807613_1_alg».proof.Proof.BlockOps

set_option maxRecDepth 16384

noncomputable section

namespace Cert.KernelIdeal.Layer1

open Cert.KernelIdeal Cert.KernelIdeal.Gen Cert.KernelIdeal.Block Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The region's five operand arrays as it finds them, each at its literal type. -/
abbrev meanA (c : Dev nD) : FVec Ideal S50000x128 .f32 := V c main_v38
abbrev featA (c : Dev nD) : FVec Ideal S50000x128 .f32 := V c main_v26
abbrev wnA (c : Dev nD) : FVec Ideal S128x128 .f32 := V c main_arg5
abbrev wrA (c : Dev nD) : FVec Ideal S128x128 .f32 := V c main_arg6
abbrev biasA (c : Dev nD) : FVec Ideal S1x128 .f32 := V c main_v39

/-- The layer's whole-array function of the arrays the region finds at entry. -/
abbrev whole (c : Dev nD) : FVec Ideal S50000x128 .f32 :=
  Cert.Sage.convRelu (meanA V c) (featA V c) (wnA V c) (wrA V c) (biasA V c)

/-- The printed index maps over the grid: the two tiled operands and the output move together, one block of rows per
    point; the weights and the bias row stay at block `(0, 0)`. -/
theorem blockIndices : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is rows `2000·t …` of the layer's whole-array function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zeroOffsets]
  simp only [View.ld_unit_zero (S := S2000x128) zeroOffsets, View.ld_unit_zero (S := S128x128) zeroOffsets, View.ld_unit_zero (S := S1x128) zeroOffsets]
  obtain ⟨e50, e51, e00, e01, e10, e11, e20, e21, e30, e31, e40, e41⟩ := blockIndices t
  funext j
  show k1_pay1 (F := Ideal) (iblk1 V c 0 t) (iblk1 V c 1 t) (iblk1 V c 2 t) (iblk1 V c 3 t) (iblk1 V c 4 t) j = whole V c (((cfg1.win 5).blk t).view.emb j)
  refine (pay1_apply (iblk1 V c 0 t) (iblk1 V c 1 t) (iblk1 V c 2 t) (iblk1 V c 3 t) (iblk1 V c 4 t) j).trans ?_
  have hj0 : (j 0).val < 2000 := (j 0).isLt
  have hj1 : (j 1).val < 128 := (j 1).isLt
  have h0 : ∀ k : Fin 128, ((cfg1.win 0).blk t).view.emb (lb j k) = Cert.Sage.lix (((cfg1.win 5).blk t).view.emb j) k := fun k => by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have h1 : ∀ k : Fin 128, ((cfg1.win 1).blk t).view.emb (lb j k) = Cert.Sage.lix (((cfg1.win 5).blk t).view.emb j) k := fun k => by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  have h2 : ∀ k : Fin 128, ((cfg1.win 2).blk t).view.emb (rb j k) = Cert.Sage.rix (((cfg1.win 5).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have h3 : ∀ k : Fin 128, ((cfg1.win 3).blk t).view.emb (rb j k) = Cert.Sage.rix (((cfg1.win 5).blk t).view.emb j) k := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have h4 : ((cfg1.win 4).blk t).view.emb (bb j) = Cert.Sage.bix (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  have r0 : ∀ k : Fin 128, iblk1 V c 0 t (lb j k) = meanA V c (Cert.Sage.lix (((cfg1.win 5).blk t).view.emb j) k) :=
    fun k => congrArg (meanA V c) (h0 k)
  have r1 : ∀ k : Fin 128, iblk1 V c 1 t (lb j k) = featA V c (Cert.Sage.lix (((cfg1.win 5).blk t).view.emb j) k) :=
    fun k => congrArg (featA V c) (h1 k)
  have r2 : ∀ k : Fin 128, iblk1 V c 2 t (rb j k) = wnA V c (Cert.Sage.rix (((cfg1.win 5).blk t).view.emb j) k) :=
    fun k => congrArg (wnA V c) (h2 k)
  have r3 : ∀ k : Fin 128, iblk1 V c 3 t (rb j k) = wrA V c (Cert.Sage.rix (((cfg1.win 5).blk t).view.emb j) k) :=
    fun k => congrArg (wrA V c) (h3 k)
  have r4 : iblk1 V c 4 t (bb j) = biasA V c (Cert.Sage.bix (((cfg1.win 5).blk t).view.emb j)) :=
    congrArg (biasA V c) h4
  simp only [r0, r1, r2, r3, r4]
  rfl

/-- An index of the output array is in point `t`'s block iff each coordinate is in the block's range on its axis. -/
theorem mem_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40).slice (win1_5.rect t)).set ↔ _
  rw [View.set_slice_whole, Rect.mem_set_unit]
  exact Iff.rfl

/-- Row `r` of the output lies in the block of point `r / 2000`: the 25 blocks cover the array. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e50, e51, -⟩ := blockIndices t
  have e50' : win1_5.index t (0 : Fin 2) = (i 0).val / 2000 := e50
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the region the output array is the layer's function of the arrays found at entry. -/
theorem final (c : Dev nD) : (dat1 V c).arrAt 5 cfg1.N = whole V c :=
  (dat1 V c).arrAt_eq_of_cover 5 (whole V c) (fun t _ => flushed_eq V c t) covered

end Cert.KernelIdeal.Layer1

end
-- ==== Proof.Layer2.lean ====
/-
  The third layer's region (no clip): after it the output array is the layer function of the region's operands.

  The grid has 25 points; point `t` reads rows `2000·t … 2000·t + 1999` of the aggregated means and of the node
  features, the two weight matrices and the bias row whole, and writes back the same rows of the output array. Each
  row of a layer depends only on the same row of its two node-array operands, so the tile written at point `t` is
  rows `2000·t …` of the whole-array layer function, and the 25 tiles cover all 50000 rows: after the region the
  output array IS that function of the arrays the region found at entry.
-/
import proofs.«111139_j85126251807613_1_alg».proof.Proof.Gen.KernelIdeal.Frame
import proofs.«111139_j85126251807613_1_alg».proof.Proof.Spec
import proofs.«111139_j85126251807613_1_alg».proof.Proof.BlockOps

set_option maxRecDepth 16384

noncomputable section

namespace Cert.KernelIdeal.Layer2

open Cert.KernelIdeal Cert.KernelIdeal.Gen Cert.KernelIdeal.Block Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The region's five operand arrays as it finds them, each at its literal type. -/
abbrev meanA (c : Dev nD) : FVec Ideal S50000x128 .f32 := V c main_v52
abbrev featA (c : Dev nD) : FVec Ideal S50000x128 .f32 := V c main_v40
abbrev wnA (c : Dev nD) : FVec Ideal S128x128 .f32 := V c main_arg8
abbrev wrA (c : Dev nD) : FVec Ideal S128x128 .f32 := V c main_arg9
abbrev biasA (c : Dev nD) : FVec Ideal S1x128 .f32 := V c main_v53

/-- The layer's whole-array function of the arrays the region finds at entry. -/
abbrev whole (c : Dev nD) : FVec Ideal S50000x128 .f32 :=
  Cert.Sage.conv (meanA V c) (featA V c) (wnA V c) (wrA V c) (biasA V c)

/-- The printed index maps over the grid: the two tiled operands and the output move together, one block of rows per
    point; the weights and the bias row stay at block `(0, 0)`. -/
theorem blockIndices : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point `t` writes back is rows `2000·t …` of the layer's whole-array function. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zeroOffsets]
  simp only [View.ld_unit_zero (S := S2000x128) zeroOffsets, View.ld_unit_zero (S := S128x128) zeroOffsets, View.ld_unit_zero (S := S1x128) zeroOffsets]
  obtain ⟨e50, e51, e00, e01, e10, e11, e20, e21, e30, e31, e40, e41⟩ := blockIndices t
  funext j
  show k2_pay1 (F := Ideal) (iblk2 V c 0 t) (iblk2 V c 1 t) (iblk2 V c 2 t) (iblk2 V c 3 t) (iblk2 V c 4 t) j = whole V c (((cfg2.win 5).blk t).view.emb j)
  refine (pay2_apply (iblk2 V c 0 t) (iblk2 V c 1 t) (iblk2 V c 2 t) (iblk2 V c 3 t) (iblk2 V c 4 t) j).trans ?_
  have hj0 : (j 0).val < 2000 := (j 0).isLt
  have hj1 : (j 1).val < 128 := (j 1).isLt
  have h0 : ∀ k : Fin 128, ((cfg2.win 0).blk t).view.emb (lb j k) = Cert.Sage.lix (((cfg2.win 5).blk t).view.emb j) k := fun k => by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * k.val = k.val; omega
  have h1 : ∀ k : Fin 128, ((cfg2.win 1).blk t).view.emb (lb j k) = Cert.Sage.lix (((cfg2.win 5).blk t).view.emb j) k := fun k => by
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * k.val = k.val; omega
  have h2 : ∀ k : Fin 128, ((cfg2.win 2).blk t).view.emb (rb j k) = Cert.Sage.rix (((cfg2.win 5).blk t).view.emb j) k := fun k => by
    funext a; apply Fin.ext
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  have h3 : ∀ k : Fin 128, ((cfg2.win 3).blk t).view.emb (rb j k) = Cert.Sage.rix (((cfg2.win 5).blk t).view.emb j) k := fun k => by
    funext a; apply Fin.ext
    match a with
    | ⟨0, _⟩ => show win2_3.index t (0 : Fin 2) * 128 + 1 * k.val = k.val; omega
    | ⟨1, _⟩ => show win2_3.index t (1 : Fin 2) * 128 + 1 * (j 1).val = win2_5.index t (1 : Fin 2) * 128 + 1 * (j 1).val; omega
  have h4 : ((cfg2.win 4).blk t).view.emb (bb j) = Cert.Sage.bix (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  have r0 : ∀ k : Fin 128, iblk2 V c 0 t (lb j k) = meanA V c (Cert.Sage.lix (((cfg2.win 5).blk t).view.emb j) k) :=
    fun k => congrArg (meanA V c) (h0 k)
  have r1 : ∀ k : Fin 128, iblk2 V c 1 t (lb j k) = featA V c (Cert.Sage.lix (((cfg2.win 5).blk t).view.emb j) k) :=
    fun k => congrArg (featA V c) (h1 k)
  have r2 : ∀ k : Fin 128, iblk2 V c 2 t (rb j k) = wnA V c (Cert.Sage.rix (((cfg2.win 5).blk t).view.emb j) k) :=
    fun k => congrArg (wnA V c) (h2 k)
  have r3 : ∀ k : Fin 128, iblk2 V c 3 t (rb j k) = wrA V c (Cert.Sage.rix (((cfg2.win 5).blk t).view.emb j) k) :=
    fun k => congrArg (wrA V c) (h3 k)
  have r4 : iblk2 V c 4 t (bb j) = biasA V c (Cert.Sage.bix (((cfg2.win 5).blk t).view.emb j)) :=
    congrArg (biasA V c) h4
  simp only [r0, r1, r2, r3, r4]
  rfl

/-- An index of the output array is in point `t`'s block iff each coordinate is in the block's range on its axis. -/
theorem mem_block (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v54).slice (win2_5.rect t)).set ↔ _
  rw [View.set_slice_whole, Rect.mem_set_unit]
  exact Iff.rfl

/-- Row `r` of the output lies in the block of point `r / 2000`: the 25 blocks cover the array. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e50, e51, -⟩ := blockIndices t
  have e50' : win2_5.index t (0 : Fin 2) = (i 0).val / 2000 := e50
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the region the output array is the layer's function of the arrays found at entry. -/
theorem final (c : Dev nD) : (dat2 V c).arrAt 5 cfg2.N = whole V c :=
  (dat2 V c).arrAt_eq_of_cover 5 (whole V c) (fun t _ => flushed_eq V c t) covered

end Cert.KernelIdeal.Layer2

end
-- ==== Proof.Head.lean ====
/-
  The classifier head's region: after it the output array is the head function of the region's operands.

  The grid has 25 points; point `t` reads rows `2000·t … 2000·t + 1999` of the last layer's features, the padded
  128 × 128 weight and the padded 1 × 128 bias row whole, and writes back the same rows of the 50000 × 128 output. A
  row of the product depends only on the same row of the features, so the tile written at point `t` is rows
  `2000·t …` of the whole-array head function, and the 25 tiles cover all 50000 rows.
-/
import proofs.«111139_j85126251807613_1_alg».proof.Proof.Gen.KernelIdeal.Frame
import proofs.«111139_j85126251807613_1_alg».proof.Proof.Spec
import proofs.«111139_j85126251807613_1_alg».proof.Proof.BlockOps

set_option maxRecDepth 16384

noncomputable section

namespace Cert.KernelIdeal.Head

open Cert.KernelIdeal Cert.KernelIdeal.Gen Cert.KernelIdeal.Block Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The region's three operand arrays as it finds them, each at its literal type. -/
abbrev featA (c : Dev nD) : FVec Ideal S50000x128 .f32 := V c main_v54
abbrev wA (c : Dev nD) : FVec Ideal S128x128 .f32 := V c main_v57
abbrev biasA (c : Dev nD) : FVec Ideal S1x128 .f32 := V c main_v60

/-- The head's whole-array function of the arrays the region finds at entry. -/
abbrev whole (c : Dev nD) : FVec Ideal S50000x128 .f32 :=
  Cert.Sage.head (featA V c) (wA V c) (biasA V c)

/-- The printed index maps over the grid: the features and the output move together, one block of rows per point; the
    weight and the bias row stay at block `(0, 0)`. -/
theorem blockIndices : ∀ t : Fin cfg3.N,
    win3_3.index t (0 : Fin 2) = t.val ∧ win3_3.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- What point `t` writes back is rows `2000·t …` of the head's whole-array function. -/
theorem flushed_eq (c : Dev nD) (t : Fin cfg3.N) :
    (dat3 V c).flushed 3 t = ((cfg3.win 3).blk t).view.read (Elt Ideal) (whole V c) := by
  show (cfg3.win 3).cut (grid3.coords t) ((dat3 V c).after 3 t) = _
  rw [after3_3]
  unfold out3_3
  rw [View.canon_unit_zero zeroOffsets]
  simp only [View.ld_unit_zero (S := S2000x128) zeroOffsets, View.ld_unit_zero (S := S128x128) zeroOffsets, View.ld_unit_zero (S := S1x128) zeroOffsets]
  obtain ⟨e30, e31, e00, e01, e10, e11, e20, e21⟩ := blockIndices t
  funext j
  show k3_pay1 (F := Ideal) (iblk3 V c 0 t) (iblk3 V c 1 t) (iblk3 V c 2 t) j = whole V c (((cfg3.win 3).blk t).view.emb j)
  refine (pay3_apply (iblk3 V c 0 t) (iblk3 V c 1 t) (iblk3 V c 2 t) j).trans ?_
  have hj0 : (j 0).val < 2000 := (j 0).isLt
  have hj1 : (j 1).val < 128 := (j 1).isLt
  have h0 : ∀ k : Fin 128, ((cfg3.win 0).blk t).view.emb (lb j k) = Cert.Sage.lix (((cfg3.win 3).blk t).view.emb j) k := fun k => by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * k.val = k.val; omega
  have h1 : ∀ k : Fin 128, ((cfg3.win 1).blk t).view.emb (rb j k) = Cert.Sage.rix (((cfg3.win 3).blk t).view.emb j) k := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  have h2 : ((cfg3.win 2).blk t).view.emb (bb j) = Cert.Sage.bix (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  have r0 : ∀ k : Fin 128, iblk3 V c 0 t (lb j k) = featA V c (Cert.Sage.lix (((cfg3.win 3).blk t).view.emb j) k) :=
    fun k => congrArg (featA V c) (h0 k)
  have r1 : ∀ k : Fin 128, iblk3 V c 1 t (rb j k) = wA V c (Cert.Sage.rix (((cfg3.win 3).blk t).view.emb j) k) :=
    fun k => congrArg (wA V c) (h1 k)
  have r2 : iblk3 V c 2 t (bb j) = biasA V c (Cert.Sage.bix (((cfg3.win 3).blk t).view.emb j)) :=
    congrArg (biasA V c) h2
  simp only [r0, r1, r2]
  rfl

/-- An index of the output array is in point `t`'s block iff each coordinate is in the block's range on its axis. -/
theorem mem_block (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v61).slice (win3_3.rect t)).set ↔ _
  rw [View.set_slice_whole, Rect.mem_set_unit]
  exact Iff.rfl

/-- Row `r` of the output lies in the block of point `r / 2000`: the 25 blocks cover the array. -/
theorem covered (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e30, e31, -⟩ := blockIndices t
  have e30' : win3_3.index t (0 : Fin 2) = (i 0).val / 2000 := e30
  refine ⟨t, flush3_3 t, ?_⟩
  rw [mem_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- After the region the output array is the head's function of the arrays found at entry. -/
theorem final (c : Dev nD) : (dat3 V c).arrAt 3 cfg3.N = whole V c :=
  (dat3 V c).arrAt_eq_of_cover 3 (whole V c) (fun t _ => flushed_eq V c t) covered

end Cert.KernelIdeal.Head

end
-- ==== Proof.LibPointWrites.lean ====
/-
  A general lemma file: a left fold of point writes, read at one entry.

  Many array updates are a left fold over a list of updates in which update `n` changes the array at most at the ONE entry
  `g n` names (and at none when `g n = none`): a `scatter` whose body returns the update (`x.at[idx].set(v)`) is such a
  fold over its update indices. Two facts read the result at an entry `i'` without walking the fold:
    · `fold_untouched`: if no update of the list names `i'`, the entry is what it was before;
    · `fold_hit`: if the list has no repetition and exactly one of its updates, `n0`, names `i'`, the entry holds `v n0`,
      the value that update writes — whatever the other updates do elsewhere.
  Both are stated for an arbitrary `step` with the two properties "off the named entry nothing changes" (`hoff`) and "at the
  named entry the update's value is written" (`hon`), so they apply to any fold of that shape over any index types.
-/
import Idealize.ShloMosaic.PureOps.Ideal

namespace Cert.LibPointWrites

/-- An entry no element of the list names is what it was before the fold. -/
theorem fold_untouched {ι κ β : Type} (step : (ι → β) → κ → ι → β) (g : κ → Option ι)
    (hoff : ∀ r n i', g n ≠ some i' → step r n i' = r i') (i' : ι) :
    ∀ (L : List κ) (x : ι → β), (∀ n ∈ L, g n ≠ some i') → L.foldl step x i' = x i' := by
  intro L
  induction L with
  | nil => intro x _; rfl
  | cons n L ih =>
    intro x h
    rw [List.foldl_cons, ih (step x n) (fun m hm => h m (List.mem_cons_of_mem _ hm))]
    exact hoff x n i' (h n List.mem_cons_self)

/-- An entry exactly one element `n0` of a list without repetition names holds `v n0` after the fold. -/
theorem fold_hit {ι κ β : Type} (step : (ι → β) → κ → ι → β) (g : κ → Option ι) (v : κ → β)
    (hoff : ∀ r n i', g n ≠ some i' → step r n i' = r i')
    (hon : ∀ r n i, g n = some i → step r n i = v n) (i' : ι) (n0 : κ) (hg : g n0 = some i') :
    ∀ (L : List κ) (x : ι → β), L.Nodup → n0 ∈ L → (∀ n ∈ L, g n = some i' → n = n0) →
      L.foldl step x i' = v n0 := by
  intro L
  induction L with
  | nil => intro x _ hmem _; exact absurd hmem List.not_mem_nil
  | cons n L ih =>
    intro x hnd hmem huniq
    rw [List.nodup_cons] at hnd
    rw [List.foldl_cons]
    rcases List.mem_cons.1 hmem with e | hin
    · subst e
      rw [fold_untouched step g hoff i' L (step x n0)
        (fun m hm hgm => hnd.1 ((huniq m (List.mem_cons_of_mem _ hm) hgm) ▸ hm))]
      exact hon x n0 i' hg
    · exact ih (step x n) hnd.2 hin (fun m hm => huniq m (List.mem_cons_of_mem _ hm))

end Cert.LibPointWrites
-- ==== Proof.Pad.lean ====
/-
  The classifier head's padded operands.

  The head's 128 × 1 weight column is written into column 0 of a 128 × 128 array of zeros, and its one bias into
  entry `(0, 0)` of a 1 × 128 row of zeros, so that the product keeps a 128-wide output; only column 0 of that
  output is kept. Both writes are one window at the literal start 0 on the column axis: update `(k, 0)` of the
  weight lands at `(k, 0)`, distinct updates at distinct entries, so entry `(k, 0)` of the padded weight is the
  weight's entry `(k, 0)`, and entry `(0, 0)` of the padded row is the bias.
-/
import proofs.«111139_j85126251807613_1_alg».proof.KernelIdeal
import Idealize.ShloMosaic.PureOps.Ideal
import Idealize.ShloMosaic.Lib.ValueIdx
import proofs.«111139_j85126251807613_1_alg».proof.Proof.LibPointWrites

noncomputable section

namespace Cert.KernelIdeal.Pad

open Cert.KernelIdeal Cert.LibPointWrites Idealize.ShloMosaic Idealize.ShloMosaic.TcCoe

variable [Cert.KernelIdeal.Facts]
open Facts₀ Facts

variable {F : FTy → Type} [FloatOps F]

/-- The weight column written into column 0 of a 128 × 128 array of zeros. -/
def padW (w : FVec F S128x1 .f32) : FVec F S128x128 .f32 :=
  Host.scatter scatter_S128x128_S1_S128x1_01_n_1_0 (fun _ b => b)
    (broadcastInDim S128x128 ![] bcast_S_S128x128 (constant S_ .f32 0x00000000#32))
    (broadcastInDim S1 ![] bcast_S_S1 (constantI S_ 32 0#32)) w

/-- The bias written into entry `(0, 0)` of a 1 × 128 row of zeros. -/
def padB (b : FVec F S1 .f32) : FVec F S1x128 .f32 :=
  Host.scatter scatter_S1x128_S1_S1_0_1_1_0 (fun _ b => b)
    (broadcastInDim S1x128 ![] bcast_S_S1x128 (constant S_ .f32 0x00000000#32))
    (broadcastInDim S1 ![] bcast_S_S1 (constantI S_ 32 0#32)) b

/-! ### The scatter index array and the two starts

Both writes read their one start component off the constant 0, so every window starts at 0 on every axis. -/

/-- An index into the one-element shape has coordinate 0. -/
theorem val_S1 (j : S1.Idx) (x : Fin S1.rank) : (j x).val = 0 := by
  have h1 := (j x).isLt
  have h2 : S1.size x = 1 := by
    match x with
    | ⟨0, _⟩ => rfl
  omega

/-- The one-element shape has one index. -/
theorem eq_S1 (j j' : S1.Idx) : j = j' := by
  funext x
  exact Fin.ext ((val_S1 j x).trans (val_S1 j' x).symm)

/-- The weight's window starts at 0 on both axes. -/
theorem startW (j : S128x1.Idx) (a : Fin S128x128.rank) :
    scatter_S128x128_S1_S128x1_01_n_1_0.start j
      (broadcastInDim S1 ![] bcast_S_S1 (constantI S_ 32 0#32)) a = 0 := by
  unfold ScatterDims.start
  split
  · exact BitVec.toInt_zero
  · rfl

/-- The bias's window starts at 0 on both axes. -/
theorem startB (j : S1.Idx) (a : Fin S1x128.rank) :
    scatter_S1x128_S1_S1_0_1_1_0.start j
      (broadcastInDim S1 ![] bcast_S_S1 (constantI S_ 32 0#32)) a = 0 := by
  unfold ScatterDims.start
  split
  · exact BitVec.toInt_zero
  · rfl

/-! ### The weight's write -/

theorem memW0 : (⟨0, by decide⟩ : Fin S128x128.rank) ∈ S128x128.kept ([] : List (Fin S128x128.rank)) := by decide
theorem memW1 : (⟨1, by decide⟩ : Fin S128x128.rank) ∈ S128x128.kept ([] : List (Fin S128x128.rank)) := by decide

/-- Both operand axes are kept, so the window coordinate on each axis is the update's own coordinate. -/
theorem windowW (j : S128x1.Idx) (a : Fin S128x128.rank) :
    scatter_S128x128_S1_S128x1_01_n_1_0.window j a = (j a).val := by
  match a with
  | ⟨0, h0⟩ =>
    unfold ScatterDims.window
    rw [dif_pos (show (⟨0, h0⟩ : Fin S128x128.rank) ∈ scatter_S128x128_S1_S128x1_01_n_1_0.sKept from memW0)]
    rfl
  | ⟨1, h1⟩ =>
    unfold ScatterDims.window
    rw [dif_pos (show (⟨1, h1⟩ : Fin S128x128.rank) ∈ scatter_S128x128_S1_S128x1_01_n_1_0.sKept from memW1)]
    rfl

theorem sizeW_le : ∀ a : Fin 2, S128x1.size a ≤ S128x128.size a := by decide

/-- An index of the 128 × 1 column read as an index of the 128 × 128 array. -/
def embW (j : S128x1.Idx) : S128x128.Idx := fun a => ⟨(j a).val, Nat.lt_of_lt_of_le (j a).isLt (sizeW_le a)⟩

theorem embW_inj (j j' : S128x1.Idx) (h : embW j = embW j') : j = j' := by
  funext a
  exact Fin.ext (congrArg (fun t : S128x128.Idx => (t a).val) h)

/-- Update `j` of the weight lands at the entry with `j`'s own coordinates. -/
theorem resultIdxW (j : S128x1.Idx) :
    scatter_S128x128_S1_S128x1_01_n_1_0.resultIdx? j
      (broadcastInDim S1 ![] bcast_S_S1 (constantI S_ 32 0#32)) = some (embW j) := by
  have hlt : ∀ a, (j a).val < S128x128.size a := fun a => (embW j a).isLt
  have h : ∀ a, 0 ≤ scatter_S128x128_S1_S128x1_01_n_1_0.start j
        (broadcastInDim S1 ![] bcast_S_S1 (constantI S_ 32 0#32)) a
          + scatter_S128x128_S1_S128x1_01_n_1_0.window j a ∧
      scatter_S128x128_S1_S128x1_01_n_1_0.start j
        (broadcastInDim S1 ![] bcast_S_S1 (constantI S_ 32 0#32)) a
          + scatter_S128x128_S1_S128x1_01_n_1_0.window j a < S128x128.size a := by
    intro a
    rw [startW, windowW]
    have := hlt a
    omega
  unfold ScatterDims.resultIdx?
  rw [dif_pos h]
  congr 1
  funext a
  apply Fin.ext
  show (scatter_S128x128_S1_S128x1_01_n_1_0.start j
        (broadcastInDim S1 ![] bcast_S_S1 (constantI S_ 32 0#32)) a
          + scatter_S128x128_S1_S128x1_01_n_1_0.window j a).toNat = (j a).val
  rw [startW, windowW]
  omega

/-- Entry `embW j` of the padded weight is the weight's entry `j`: update `j` is the one update landing there. -/
theorem padW_at (w : FVec F S128x1 .f32) (j : S128x1.Idx) : padW w (embW j) = w j := by
  unfold padW Host.scatter
  refine (fold_hit _
    (fun n => scatter_S128x128_S1_S128x1_01_n_1_0.resultIdx? (S128x1.rowMajor.symm n)
      (broadcastInDim S1 ![] bcast_S_S1 (constantI S_ 32 0#32)))
    (fun n => w (S128x1.rowMajor.symm n)) ?_ ?_ (embW j) (S128x1.rowMajor j) ?_ _ _
    (List.nodup_finRange _) (List.mem_finRange _) ?_).trans ?_
  · intro r n i' h
    dsimp only
    revert h
    generalize scatter_S128x128_S1_S128x1_01_n_1_0.resultIdx? (S128x1.rowMajor.symm n)
      (broadcastInDim S1 ![] bcast_S_S1 (constantI S_ 32 0#32)) = q
    intro h
    cases q with
    | none => rfl
    | some i => exact if_neg (fun e => h (congrArg some e.symm))
  · intro r n i h
    dsimp only
    rw [h]
    exact if_pos rfl
  · rw [Equiv.symm_apply_apply]
    exact resultIdxW j
  · intro n _ hn
    dsimp only at hn
    rw [resultIdxW] at hn
    exact (Equiv.symm_apply_eq _).1 (embW_inj _ _ (Option.some.inj hn))
  · rw [Equiv.symm_apply_apply]

/-! ### The bias's write -/

theorem memB0 : (⟨0, by decide⟩ : Fin S1x128.rank) ∈ S1x128.kept ([1] : List (Fin S1x128.rank)) := by decide
theorem not_memB1 : (⟨1, by decide⟩ : Fin S1x128.rank) ∉ S1x128.kept ([1] : List (Fin S1x128.rank)) := by decide

/-- Axis 0 is the one kept axis and carries the update's one coordinate, which is 0; axis 1 is inserted:
    the window coordinate is 0 on both axes. -/
theorem windowB (j : S1.Idx) (a : Fin S1x128.rank) :
    scatter_S1x128_S1_S1_0_1_1_0.window j a = 0 := by
  match a with
  | ⟨0, h0⟩ =>
    unfold ScatterDims.window
    rw [dif_pos (show (⟨0, h0⟩ : Fin S1x128.rank) ∈ scatter_S1x128_S1_S1_0_1_1_0.sKept from memB0)]
    exact val_S1 j _
  | ⟨1, h1⟩ =>
    unfold ScatterDims.window
    rw [dif_neg (show (⟨1, h1⟩ : Fin S1x128.rank) ∉ scatter_S1x128_S1_S1_0_1_1_0.sKept from not_memB1)]

theorem posB : ∀ a : Fin 2, 0 < S1x128.size a := by decide

/-- Entry `(0, 0)` of the 1 × 128 row. -/
def zeroB : S1x128.Idx := fun a => ⟨0, posB a⟩

/-- The bias's one update lands at entry `(0, 0)`. -/
theorem resultIdxB (j : S1.Idx) :
    scatter_S1x128_S1_S1_0_1_1_0.resultIdx? j
      (broadcastInDim S1 ![] bcast_S_S1 (constantI S_ 32 0#32)) = some zeroB := by
  have h : ∀ a, 0 ≤ scatter_S1x128_S1_S1_0_1_1_0.start j
        (broadcastInDim S1 ![] bcast_S_S1 (constantI S_ 32 0#32)) a
          + scatter_S1x128_S1_S1_0_1_1_0.window j a ∧
      scatter_S1x128_S1_S1_0_1_1_0.start j
        (broadcastInDim S1 ![] bcast_S_S1 (constantI S_ 32 0#32)) a
          + scatter_S1x128_S1_S1_0_1_1_0.window j a < S1x128.size a := by
    intro a
    rw [startB, windowB]
    have := posB a
    omega
  unfold ScatterDims.resultIdx?
  rw [dif_pos h]
  congr 1
  funext a
  apply Fin.ext
  show (scatter_S1x128_S1_S1_0_1_1_0.start j
        (broadcastInDim S1 ![] bcast_S_S1 (constantI S_ 32 0#32)) a
          + scatter_S1x128_S1_S1_0_1_1_0.window j a).toNat = 0
  rw [startB, windowB]
  rfl

/-- Entry `(0, 0)` of the padded row is the bias's one entry. -/
theorem padB_at (b : FVec F S1 .f32) (j : S1.Idx) : padB b zeroB = b j := by
  unfold padB Host.scatter
  refine (fold_hit _
    (fun n => scatter_S1x128_S1_S1_0_1_1_0.resultIdx? (S1.rowMajor.symm n)
      (broadcastInDim S1 ![] bcast_S_S1 (constantI S_ 32 0#32)))
    (fun n => b (S1.rowMajor.symm n)) ?_ ?_ zeroB (S1.rowMajor j) ?_ _ _
    (List.nodup_finRange _) (List.mem_finRange _) ?_).trans ?_
  · intro r n i' h
    dsimp only
    revert h
    generalize scatter_S1x128_S1_S1_0_1_1_0.resultIdx? (S1.rowMajor.symm n)
      (broadcastInDim S1 ![] bcast_S_S1 (constantI S_ 32 0#32)) = q
    intro h
    cases q with
    | none => rfl
    | some i => exact if_neg (fun e => h (congrArg some e.symm))
  · intro r n i h
    dsimp only
    rw [h]
    exact if_pos rfl
  · exact resultIdxB _
  · intro n _ _
    exact (Equiv.symm_apply_eq _).1 (eq_S1 _ _)
  · rw [Equiv.symm_apply_apply]

/-- Entry `(k, 0)` of the padded weight is the weight's entry `(k, 0)`. -/
theorem padW_col0 (w : FVec F S128x1 .f32) (k : Fin 128) :
    padW w (fun a => match a with | ⟨0, _⟩ => ⟨k.val, k.isLt⟩ | ⟨1, _⟩ => ⟨0, (by decide : (0 : Nat) < 128)⟩)
      = w (fun a => match a with | ⟨0, _⟩ => ⟨k.val, k.isLt⟩ | ⟨1, _⟩ => ⟨0, Nat.one_pos⟩) := by
  refine Eq.trans (congrArg (padW w) ?_) (padW_at w _)
  funext a
  match a with
  | ⟨0, _⟩ => rfl
  | ⟨1, _⟩ => rfl

/-- Entry `(0, 0)` of the padded bias row is the bias. -/
theorem padB_00 (b : FVec F S1 .f32) :
    padB b (fun a => match a with | ⟨0, _⟩ => ⟨0, Nat.one_pos⟩ | ⟨1, _⟩ => ⟨0, (by decide : (0 : Nat) < 128)⟩)
      = b (fun a => match a with | ⟨0, _⟩ => ⟨0, Nat.one_pos⟩) := by
  refine Eq.trans (congrArg (padB b) ?_) (padB_at b _)
  funext a
  match a with
  | ⟨0, _⟩ => rfl
  | ⟨1, _⟩ => rfl

end Cert.KernelIdeal.Pad

end
-- ==== Proof.Glue.lean ====
/-
  The host operations of the kernel's program, as named functions of the arrays they read.

  Around its four regions the program prepares, on the host: the edges' source and destination node ids (the two rows
  of the edge array), the reciprocal `1 / max(deg, 1)` of each node's in-degree (a scatter-add of ones at the
  destinations), before each layer the aggregated neighbour mean `(Σ_{edges into r} h[src]) · (1 / max(deg r, 1))` (a
  gather of the rows of `h` at the sources, a scatter-add at the destinations, a product with the reciprocal spread
  along the rows), each bias as a 1 × 128 row, the head's padded weight and bias, and at the end column 0 of the
  head's output. Each stretch of host operations is read back here as those functions of the buffers it finds, whatever
  the buffers hold: gather and scatter-add are never opened.
-/
import proofs.«111139_j85126251807613_1_alg».proof.Proof.Gen.KernelIdeal.Launch
import proofs.«111139_j85126251807613_1_alg».proof.Proof.Pad
import Idealize.ShloMosaic.Lib.StableHlo.Run

noncomputable section

namespace Cert.KernelIdeal.Glue

open Cert.KernelIdeal Cert.KernelIdeal.Gen Cert.KernelIdeal.Pad Idealize.ShloMosaic Idealize.ShloMosaic.TcCoe Idealize.SL.Sem Idealize.ShloMosaic.StableHlo

variable {F : FTy → Type} [FloatOps F]

/-- The edges' source node ids: row 0 of the edge array. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination node ids: row 1 of the edge array. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Each node's in-degree: ones added up at the destinations. -/
def rawDegOf (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The in-degree, at least one. -/
def degOf (dst : (⟨S800000, .i32⟩ : BufTy).Contents (Elt F)) : (⟨S50000, .f32⟩ : BufTy).Contents (Elt F) :=
  maximumf (rawDegOf dst) (broadcastInDim S50000 ![] bcast_S_S50000 (constant S_ .f32 0x3F800000#32))

/-- Its reciprocal, as a 50000 × 1 column. -/
def invDegOf (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32)) (degOf dst))

/-- The rows of `h` at the sources (a negative id wrapped once by the number of nodes), added up at the destinations. -/
def aggOf (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The aggregated neighbour mean: the sum times the reciprocal degree spread along each row. -/
def meanOf (h : (⟨S50000x128, .f32⟩ : BufTy).Contents (Elt F)) (src dst : (⟨S800000, .i32⟩ : BufTy).Contents (Elt F))
    (inv : (⟨S50000x1, .f32⟩ : BufTy).Contents (Elt F)) : (⟨S50000x128, .f32⟩ : BufTy).Contents (Elt F) :=
  mulf (aggOf h src dst) (broadcastInDim S50000x128 ![0, 1] bcast_S50000x1_S50000x128_0_1 inv)

/-- A bias as a 1 × 128 row. -/
def rowOf (b : (⟨S128, .f32⟩ : BufTy).Contents (Elt F)) : (⟨S1x128, .f32⟩ : BufTy).Contents (Elt F) :=
  shapeCast S1x128 b shapeCasts_S128_S1x128

/-- Column 0 of the head's output, as a vector over the nodes. -/
def col0Of (o : (⟨S50000x128, .f32⟩ : BufTy).Contents (Elt F)) : (⟨S50000, .f32⟩ : BufTy).Contents (Elt F) :=
  shapeCast S50000 (extractStridedSlice S50000x1 ![0, 0] o slices_S50000x128_S50000x1_0_0) shapeCasts_S50000x1_S50000

/-! ## The first stretch: ids, reciprocal degree, the first mean, the first bias row -/

section
variable (X : Valuation τ sig (Elt F))

theorem s0_src : after hostOps0 X (Proc.devRef .tc main_v1) = srcOf (X (Proc.devRef .tc main_arg1)) := by
  after_results_simp <;> rfl
theorem s0_dst : after hostOps0 X (Proc.devRef .tc main_v3) = dstOf (X (Proc.devRef .tc main_arg1)) := by
  after_results_simp <;> rfl
theorem s0_inv : after hostOps0 X (Proc.devRef .tc main_v12) = invDegOf (dstOf (X (Proc.devRef .tc main_arg1))) := by
  after_results_simp <;> rfl
theorem s0_mean : after hostOps0 X (Proc.devRef .tc main_v24)
    = meanOf (X (Proc.devRef .tc main_arg0)) (srcOf (X (Proc.devRef .tc main_arg1))) (dstOf (X (Proc.devRef .tc main_arg1)))
        (invDegOf (dstOf (X (Proc.devRef .tc main_arg1)))) := by
  after_results_simp <;> rfl
theorem s0_row : after hostOps0 X (Proc.devRef .tc main_v25) = rowOf (X (Proc.devRef .tc main_arg4)) := by
  after_results_simp <;> rfl

/-! ## The second and third stretches: the next mean from the previous layer's output, the next bias row -/

theorem s1_mean : after hostOps1 X (Proc.devRef .tc main_v38)
    = meanOf (X (Proc.devRef .tc main_v26)) (X (Proc.devRef .tc main_v1)) (X (Proc.devRef .tc main_v3)) (X (Proc.devRef .tc main_v12)) := by
  after_results_simp <;> rfl
theorem s1_row : after hostOps1 X (Proc.devRef .tc main_v39) = rowOf (X (Proc.devRef .tc main_arg7)) := by
  after_results_simp <;> rfl

theorem s2_mean : after hostOps2 X (Proc.devRef .tc main_v52)
    = meanOf (X (Proc.devRef .tc main_v40)) (X (Proc.devRef .tc main_v1)) (X (Proc.devRef .tc main_v3)) (X (Proc.devRef .tc main_v12)) := by
  after_results_simp <;> rfl
theorem s2_row : after hostOps2 X (Proc.devRef .tc main_v53) = rowOf (X (Proc.devRef .tc main_arg10)) := by
  after_results_simp <;> rfl

/-! ## The fourth stretch: the head's padded weight and bias row; the last: column 0 of its output -/

theorem s3_w : after hostOps3 X (Proc.devRef .tc main_v57) = padW (X (Proc.devRef .tc main_arg11)) := by
  after_results_simp <;> rfl
theorem s3_b : after hostOps3 X (Proc.devRef .tc main_v60) = padB (X (Proc.devRef .tc main_arg12)) := by
  after_results_simp <;> rfl

theorem s4_out : after hostOps4 X (Proc.devRef .tc main_v63) = col0Of (X (Proc.devRef .tc main_v61)) := by
  after_results_simp <;> rfl

end

end Cert.KernelIdeal.Glue

end
-- ==== Proof.KernelValue.lean ====
/-
  The kernel's result as one function of its thirteen argument arrays.

  Three layers, each the aggregated mean of the previous hidden state fed with that state to the layer function (the
  first two clipped at zero), then the classifier head over the padded weight and bias, of which column 0 is kept:

      h₁ = relu(layer(mean(x), x; w₀))   h₂ = relu(layer(mean(h₁), h₁; w₁))   h₃ = layer(mean(h₂), h₂; w₂)
      result[r] = (Σₖ h₃[r,k] · wpad[k,0]) + bpad[0,0].
-/
import proofs.«111139_j85126251807613_1_alg».proof.Proof.Glue
import proofs.«111139_j85126251807613_1_alg».proof.Proof.Spec

noncomputable section

namespace Cert.KernelIdeal.Glue

open Cert.KernelIdeal Cert.KernelIdeal.Pad Idealize.ShloMosaic Idealize.ShloMosaic.TcCoe

/-- An inner layer at hidden state `h`: the mean of `h` over the in-edges and `h` itself through the layer, clipped. -/
def layerRelu (h : (⟨S50000x128, .f32⟩ : BufTy).Contents (Elt Ideal)) (e : (⟨S2x800000, .i32⟩ : BufTy).Contents (Elt Ideal))
    (wn wr : (⟨S128x128, .f32⟩ : BufTy).Contents (Elt Ideal)) (b : (⟨S128, .f32⟩ : BufTy).Contents (Elt Ideal)) :
    (⟨S50000x128, .f32⟩ : BufTy).Contents (Elt Ideal) :=
  Cert.Sage.convRelu (meanOf (F := Ideal) h (srcOf e) (dstOf e) (invDegOf (dstOf e))) h wn wr (rowOf (F := Ideal) b)

/-- The last layer: the same without the clip. -/
def layerLast (h : (⟨S50000x128, .f32⟩ : BufTy).Contents (Elt Ideal)) (e : (⟨S2x800000, .i32⟩ : BufTy).Contents (Elt Ideal))
    (wn wr : (⟨S128x128, .f32⟩ : BufTy).Contents (Elt Ideal)) (b : (⟨S128, .f32⟩ : BufTy).Contents (Elt Ideal)) :
    (⟨S50000x128, .f32⟩ : BufTy).Contents (Elt Ideal) :=
  Cert.Sage.conv (meanOf (F := Ideal) h (srcOf e) (dstOf e) (invDegOf (dstOf e))) h wn wr (rowOf (F := Ideal) b)

/-- The head over the padded weight and bias, column 0 kept. -/
def headOut (h : (⟨S50000x128, .f32⟩ : BufTy).Contents (Elt Ideal)) (w : (⟨S128x1, .f32⟩ : BufTy).Contents (Elt Ideal))
    (b : (⟨S1, .f32⟩ : BufTy).Contents (Elt Ideal)) : (⟨S50000, .f32⟩ : BufTy).Contents (Elt Ideal) :=
  col0Of (F := Ideal) (Cert.Sage.head h (padW (F := Ideal) w) (padB (F := Ideal) b))

/-- The kernel's result of its thirteen arguments. -/
def kernelOut (x0 : (⟨S50000x128, .f32⟩ : BufTy).Contents (Elt Ideal)) (e : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x1, .f32⟩ : BufTy).Contents (Elt Ideal)) (x12 : (⟨S1, .f32⟩ : BufTy).Contents (Elt Ideal)) :
    (⟨S50000, .f32⟩ : BufTy).Contents (Elt Ideal) :=
  headOut (layerLast (layerRelu (layerRelu x0 e x2 x3 x4) e x5 x6 x7) e x8 x9 x10) x11 x12

end Cert.KernelIdeal.Glue

end
-- ==== Proof.Fold.lean ====
/-
  The kernel's run, read back: what the result buffer holds at the end, as a function of the launch memory.

  The program is five stretches of host operations around four regions. From the launch memory, each stretch leaves
  its results at the named host functions of what it found (every other buffer untouched), and each region leaves its
  output array at the layer (or head) function of the arrays it found (every other buffer untouched). Following the
  buffers that matter — the two id vectors, the reciprocal degree, each hidden state, the weights and biases —
  boundary by boundary gives the result buffer as the nested layers and head of the thirteen arguments.
-/
import proofs.«111139_j85126251807613_1_alg».proof.Proof.Gen.KernelIdeal.Frame
import proofs.«111139_j85126251807613_1_alg».proof.Proof.Layer0
import proofs.«111139_j85126251807613_1_alg».proof.Proof.Layer1
import proofs.«111139_j85126251807613_1_alg».proof.Proof.Layer2
import proofs.«111139_j85126251807613_1_alg».proof.Proof.Head
import proofs.«111139_j85126251807613_1_alg».proof.Proof.KernelValue

set_option maxRecDepth 16384

noncomputable section

namespace Cert.KernelIdeal.Fold

open Cert.KernelIdeal Cert.KernelIdeal.Gen Cert.KernelIdeal.Glue Cert.KernelIdeal.Pad Idealize.ShloMosaic Idealize.ShloMosaic.TcCoe Idealize.SL.Sem Idealize.ShloMosaic.StableHlo

/-- A buffer none of a stretch's operations writes keeps its contents: each operation's result buffer is another one. -/
macro "keep_ops" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## What each stretch leaves untouched -/

theorem keep0_arg0 (X : Valuation τ sig (Elt Ideal)) : after hostOps0 X (Proc.devRef .tc main_arg0) = X (Proc.devRef .tc main_arg0) := by keep_ops hostOps0
theorem keep0_arg1 (X : Valuation τ sig (Elt Ideal)) : after hostOps0 X (Proc.devRef .tc main_arg1) = X (Proc.devRef .tc main_arg1) := by keep_ops hostOps0
theorem keep0_arg2 (X : Valuation τ sig (Elt Ideal)) : after hostOps0 X (Proc.devRef .tc main_arg2) = X (Proc.devRef .tc main_arg2) := by keep_ops hostOps0
theorem keep0_arg3 (X : Valuation τ sig (Elt Ideal)) : after hostOps0 X (Proc.devRef .tc main_arg3) = X (Proc.devRef .tc main_arg3) := by keep_ops hostOps0
theorem keep0_arg4 (X : Valuation τ sig (Elt Ideal)) : after hostOps0 X (Proc.devRef .tc main_arg4) = X (Proc.devRef .tc main_arg4) := by keep_ops hostOps0
theorem keep0_arg5 (X : Valuation τ sig (Elt Ideal)) : after hostOps0 X (Proc.devRef .tc main_arg5) = X (Proc.devRef .tc main_arg5) := by keep_ops hostOps0
theorem keep0_arg6 (X : Valuation τ sig (Elt Ideal)) : after hostOps0 X (Proc.devRef .tc main_arg6) = X (Proc.devRef .tc main_arg6) := by keep_ops hostOps0
theorem keep0_arg7 (X : Valuation τ sig (Elt Ideal)) : after hostOps0 X (Proc.devRef .tc main_arg7) = X (Proc.devRef .tc main_arg7) := by keep_ops hostOps0
theorem keep0_arg8 (X : Valuation τ sig (Elt Ideal)) : after hostOps0 X (Proc.devRef .tc main_arg8) = X (Proc.devRef .tc main_arg8) := by keep_ops hostOps0
theorem keep0_arg9 (X : Valuation τ sig (Elt Ideal)) : after hostOps0 X (Proc.devRef .tc main_arg9) = X (Proc.devRef .tc main_arg9) := by keep_ops hostOps0
theorem keep0_arg10 (X : Valuation τ sig (Elt Ideal)) : after hostOps0 X (Proc.devRef .tc main_arg10) = X (Proc.devRef .tc main_arg10) := by keep_ops hostOps0
theorem keep0_arg11 (X : Valuation τ sig (Elt Ideal)) : after hostOps0 X (Proc.devRef .tc main_arg11) = X (Proc.devRef .tc main_arg11) := by keep_ops hostOps0
theorem keep0_arg12 (X : Valuation τ sig (Elt Ideal)) : after hostOps0 X (Proc.devRef .tc main_arg12) = X (Proc.devRef .tc main_arg12) := by keep_ops hostOps0

theorem keep1_v26 (X : Valuation τ sig (Elt Ideal)) : after hostOps1 X (Proc.devRef .tc main_v26) = X (Proc.devRef .tc main_v26) := by keep_ops hostOps1
theorem keep1_v1 (X : Valuation τ sig (Elt Ideal)) : after hostOps1 X (Proc.devRef .tc main_v1) = X (Proc.devRef .tc main_v1) := by keep_ops hostOps1
theorem keep1_v3 (X : Valuation τ sig (Elt Ideal)) : after hostOps1 X (Proc.devRef .tc main_v3) = X (Proc.devRef .tc main_v3) := by keep_ops hostOps1
theorem keep1_v12 (X : Valuation τ sig (Elt Ideal)) : after hostOps1 X (Proc.devRef .tc main_v12) = X (Proc.devRef .tc main_v12) := by keep_ops hostOps1
theorem keep1_arg5 (X : Valuation τ sig (Elt Ideal)) : after hostOps1 X (Proc.devRef .tc main_arg5) = X (Proc.devRef .tc main_arg5) := by keep_ops hostOps1
theorem keep1_arg6 (X : Valuation τ sig (Elt Ideal)) : after hostOps1 X (Proc.devRef .tc main_arg6) = X (Proc.devRef .tc main_arg6) := by keep_ops hostOps1
theorem keep1_arg7 (X : Valuation τ sig (Elt Ideal)) : after hostOps1 X (Proc.devRef .tc main_arg7) = X (Proc.devRef .tc main_arg7) := by keep_ops hostOps1
theorem keep1_arg8 (X : Valuation τ sig (Elt Ideal)) : after hostOps1 X (Proc.devRef .tc main_arg8) = X (Proc.devRef .tc main_arg8) := by keep_ops hostOps1
theorem keep1_arg9 (X : Valuation τ sig (Elt Ideal)) : after hostOps1 X (Proc.devRef .tc main_arg9) = X (Proc.devRef .tc main_arg9) := by keep_ops hostOps1
theorem keep1_arg10 (X : Valuation τ sig (Elt Ideal)) : after hostOps1 X (Proc.devRef .tc main_arg10) = X (Proc.devRef .tc main_arg10) := by keep_ops hostOps1
theorem keep1_arg11 (X : Valuation τ sig (Elt Ideal)) : after hostOps1 X (Proc.devRef .tc main_arg11) = X (Proc.devRef .tc main_arg11) := by keep_ops hostOps1
theorem keep1_arg12 (X : Valuation τ sig (Elt Ideal)) : after hostOps1 X (Proc.devRef .tc main_arg12) = X (Proc.devRef .tc main_arg12) := by keep_ops hostOps1

theorem keep2_v40 (X : Valuation τ sig (Elt Ideal)) : after hostOps2 X (Proc.devRef .tc main_v40) = X (Proc.devRef .tc main_v40) := by keep_ops hostOps2
theorem keep2_v1 (X : Valuation τ sig (Elt Ideal)) : after hostOps2 X (Proc.devRef .tc main_v1) = X (Proc.devRef .tc main_v1) := by keep_ops hostOps2
theorem keep2_v3 (X : Valuation τ sig (Elt Ideal)) : after hostOps2 X (Proc.devRef .tc main_v3) = X (Proc.devRef .tc main_v3) := by keep_ops hostOps2
theorem keep2_v12 (X : Valuation τ sig (Elt Ideal)) : after hostOps2 X (Proc.devRef .tc main_v12) = X (Proc.devRef .tc main_v12) := by keep_ops hostOps2
theorem keep2_arg8 (X : Valuation τ sig (Elt Ideal)) : after hostOps2 X (Proc.devRef .tc main_arg8) = X (Proc.devRef .tc main_arg8) := by keep_ops hostOps2
theorem keep2_arg9 (X : Valuation τ sig (Elt Ideal)) : after hostOps2 X (Proc.devRef .tc main_arg9) = X (Proc.devRef .tc main_arg9) := by keep_ops hostOps2
theorem keep2_arg10 (X : Valuation τ sig (Elt Ideal)) : after hostOps2 X (Proc.devRef .tc main_arg10) = X (Proc.devRef .tc main_arg10) := by keep_ops hostOps2
theorem keep2_arg11 (X : Valuation τ sig (Elt Ideal)) : after hostOps2 X (Proc.devRef .tc main_arg11) = X (Proc.devRef .tc main_arg11) := by keep_ops hostOps2
theorem keep2_arg12 (X : Valuation τ sig (Elt Ideal)) : after hostOps2 X (Proc.devRef .tc main_arg12) = X (Proc.devRef .tc main_arg12) := by keep_ops hostOps2

theorem keep3_v54 (X : Valuation τ sig (Elt Ideal)) : after hostOps3 X (Proc.devRef .tc main_v54) = X (Proc.devRef .tc main_v54) := by keep_ops hostOps3
theorem keep3_arg11 (X : Valuation τ sig (Elt Ideal)) : after hostOps3 X (Proc.devRef .tc main_arg11) = X (Proc.devRef .tc main_arg11) := by keep_ops hostOps3
theorem keep3_arg12 (X : Valuation τ sig (Elt Ideal)) : after hostOps3 X (Proc.devRef .tc main_arg12) = X (Proc.devRef .tc main_arg12) := by keep_ops hostOps3

/-! ## The launch memory's arguments, each at its literal type -/

variable (m : (ℓ : Loc nD τ sig) → Buf (Elt Ideal) ℓ) (ρ : Dev nD → PrngReg)

abbrev A0 (c : Dev nD) : (⟨S50000x128, .f32⟩ : BufTy).Contents (Elt Ideal) := m ((c : Thread nD τ).loc main_arg0)
abbrev A1 (c : Dev nD) : (⟨S2x800000, .i32⟩ : BufTy).Contents (Elt Ideal) := m ((c : Thread nD τ).loc main_arg1)
abbrev A2 (c : Dev nD) : (⟨S128x128, .f32⟩ : BufTy).Contents (Elt Ideal) := m ((c : Thread nD τ).loc main_arg2)
abbrev A3 (c : Dev nD) : (⟨S128x128, .f32⟩ : BufTy).Contents (Elt Ideal) := m ((c : Thread nD τ).loc main_arg3)
abbrev A4 (c : Dev nD) : (⟨S128, .f32⟩ : BufTy).Contents (Elt Ideal) := m ((c : Thread nD τ).loc main_arg4)
abbrev A5 (c : Dev nD) : (⟨S128x128, .f32⟩ : BufTy).Contents (Elt Ideal) := m ((c : Thread nD τ).loc main_arg5)
abbrev A6 (c : Dev nD) : (⟨S128x128, .f32⟩ : BufTy).Contents (Elt Ideal) := m ((c : Thread nD τ).loc main_arg6)
abbrev A7 (c : Dev nD) : (⟨S128, .f32⟩ : BufTy).Contents (Elt Ideal) := m ((c : Thread nD τ).loc main_arg7)
abbrev A8 (c : Dev nD) : (⟨S128x128, .f32⟩ : BufTy).Contents (Elt Ideal) := m ((c : Thread nD τ).loc main_arg8)
abbrev A9 (c : Dev nD) : (⟨S128x128, .f32⟩ : BufTy).Contents (Elt Ideal) := m ((c : Thread nD τ).loc main_arg9)
abbrev A10 (c : Dev nD) : (⟨S128, .f32⟩ : BufTy).Contents (Elt Ideal) := m ((c : Thread nD τ).loc main_arg10)
abbrev A11 (c : Dev nD) : (⟨S128x1, .f32⟩ : BufTy).Contents (Elt Ideal) := m ((c : Thread nD τ).loc main_arg11)
abbrev A12 (c : Dev nD) : (⟨S1, .f32⟩ : BufTy).Contents (Elt Ideal) := m ((c : Thread nD τ).loc main_arg12)

/-- The three hidden states. -/
abbrev H1 (c : Dev nD) := layerRelu (A0 m c) (A1 m c) (A2 m c) (A3 m c) (A4 m c)
abbrev H2 (c : Dev nD) := layerRelu (H1 m c) (A1 m c) (A5 m c) (A6 m c) (A7 m c)
abbrev H3 (c : Dev nD) := layerLast (H2 m c) (A1 m c) (A8 m c) (A9 m c) (A10 m c)

/-! ## After the first stretch (the first region's entry) -/

theorem b1_src (c : Dev nD) : W1 m ρ c (Proc.devRef .tc main_v1) = srcOf (A1 m c) := s0_src (W0 m ρ c)
theorem b1_dst (c : Dev nD) : W1 m ρ c (Proc.devRef .tc main_v3) = dstOf (A1 m c) := s0_dst (W0 m ρ c)
theorem b1_inv (c : Dev nD) : W1 m ρ c (Proc.devRef .tc main_v12) = invDegOf (dstOf (A1 m c)) := s0_inv (W0 m ρ c)
theorem b1_mean (c : Dev nD) : W1 m ρ c (Proc.devRef .tc main_v24) = meanOf (A0 m c) (srcOf (A1 m c)) (dstOf (A1 m c)) (invDegOf (dstOf (A1 m c))) :=
  s0_mean (W0 m ρ c)
theorem b1_row (c : Dev nD) : W1 m ρ c (Proc.devRef .tc main_v25) = rowOf (A4 m c) := s0_row (W0 m ρ c)
theorem b1_a0 (c : Dev nD) : W1 m ρ c (Proc.devRef .tc main_arg0) = A0 m c := keep0_arg0 (W0 m ρ c)
theorem b1_a2 (c : Dev nD) : W1 m ρ c (Proc.devRef .tc main_arg2) = A2 m c := keep0_arg2 (W0 m ρ c)
theorem b1_a3 (c : Dev nD) : W1 m ρ c (Proc.devRef .tc main_arg3) = A3 m c := keep0_arg3 (W0 m ρ c)

/-- The first region leaves the first hidden state in its output array. -/
theorem b2_h (c : Dev nD) : W2 m ρ c (Proc.devRef .tc main_v26) = H1 m c := by
  refine (W2_arr m ρ c 5).trans ((Layer0.final (V1 m ρ) c).trans ?_)
  show Cert.Sage.convRelu (W1 m ρ c (Proc.devRef .tc main_v24)) (W1 m ρ c (Proc.devRef .tc main_arg0)) (W1 m ρ c (Proc.devRef .tc main_arg2)) (W1 m ρ c (Proc.devRef .tc main_arg3)) (W1 m ρ c (Proc.devRef .tc main_v25)) = _
  rw [b1_mean, b1_a0, b1_a2, b1_a3, b1_row]
  rfl

/-- The first region touches none of these: its arrays are the mean, the features, two weights, the bias row, the output. -/
theorem b2_src (c : Dev nD) : W2 m ρ c (Proc.devRef .tc main_v1) = srcOf (A1 m c) := (W2_of_ne m ρ c main_v1 (by decide)).trans (b1_src m ρ c)
theorem b2_dst (c : Dev nD) : W2 m ρ c (Proc.devRef .tc main_v3) = dstOf (A1 m c) := (W2_of_ne m ρ c main_v3 (by decide)).trans (b1_dst m ρ c)
theorem b2_inv (c : Dev nD) : W2 m ρ c (Proc.devRef .tc main_v12) = invDegOf (dstOf (A1 m c)) := (W2_of_ne m ρ c main_v12 (by decide)).trans (b1_inv m ρ c)
theorem b2_a5 (c : Dev nD) : W2 m ρ c (Proc.devRef .tc main_arg5) = A5 m c := (W2_of_ne m ρ c main_arg5 (by decide)).trans (keep0_arg5 (W0 m ρ c))
theorem b2_a6 (c : Dev nD) : W2 m ρ c (Proc.devRef .tc main_arg6) = A6 m c := (W2_of_ne m ρ c main_arg6 (by decide)).trans (keep0_arg6 (W0 m ρ c))
theorem b2_a7 (c : Dev nD) : W2 m ρ c (Proc.devRef .tc main_arg7) = A7 m c := (W2_of_ne m ρ c main_arg7 (by decide)).trans (keep0_arg7 (W0 m ρ c))
theorem b2_a8 (c : Dev nD) : W2 m ρ c (Proc.devRef .tc main_arg8) = A8 m c := (W2_of_ne m ρ c main_arg8 (by decide)).trans (keep0_arg8 (W0 m ρ c))
theorem b2_a9 (c : Dev nD) : W2 m ρ c (Proc.devRef .tc main_arg9) = A9 m c := (W2_of_ne m ρ c main_arg9 (by decide)).trans (keep0_arg9 (W0 m ρ c))
theorem b2_a10 (c : Dev nD) : W2 m ρ c (Proc.devRef .tc main_arg10) = A10 m c := (W2_of_ne m ρ c main_arg10 (by decide)).trans (keep0_arg10 (W0 m ρ c))
theorem b2_a11 (c : Dev nD) : W2 m ρ c (Proc.devRef .tc main_arg11) = A11 m c := (W2_of_ne m ρ c main_arg11 (by decide)).trans (keep0_arg11 (W0 m ρ c))
theorem b2_a12 (c : Dev nD) : W2 m ρ c (Proc.devRef .tc main_arg12) = A12 m c := (W2_of_ne m ρ c main_arg12 (by decide)).trans (keep0_arg12 (W0 m ρ c))

/-! ## After the second stretch (the second region's entry) -/

theorem b3_mean (c : Dev nD) : W3 m ρ c (Proc.devRef .tc main_v38) = meanOf (H1 m c) (srcOf (A1 m c)) (dstOf (A1 m c)) (invDegOf (dstOf (A1 m c))) := by
  refine (s1_mean (W2 m ρ c)).trans ?_
  rw [b2_h, b2_src, b2_dst, b2_inv]
theorem b3_row (c : Dev nD) : W3 m ρ c (Proc.devRef .tc main_v39) = rowOf (A7 m c) := by
  refine (s1_row (W2 m ρ c)).trans ?_
  rw [b2_a7]
theorem b3_h (c : Dev nD) : W3 m ρ c (Proc.devRef .tc main_v26) = H1 m c := (keep1_v26 (W2 m ρ c)).trans (b2_h m ρ c)
theorem b3_a5 (c : Dev nD) : W3 m ρ c (Proc.devRef .tc main_arg5) = A5 m c := (keep1_arg5 (W2 m ρ c)).trans (b2_a5 m ρ c)
theorem b3_a6 (c : Dev nD) : W3 m ρ c (Proc.devRef .tc main_arg6) = A6 m c := (keep1_arg6 (W2 m ρ c)).trans (b2_a6 m ρ c)
theorem b3_src (c : Dev nD) : W3 m ρ c (Proc.devRef .tc main_v1) = srcOf (A1 m c) := (keep1_v1 (W2 m ρ c)).trans (b2_src m ρ c)
theorem b3_dst (c : Dev nD) : W3 m ρ c (Proc.devRef .tc main_v3) = dstOf (A1 m c) := (keep1_v3 (W2 m ρ c)).trans (b2_dst m ρ c)
theorem b3_inv (c : Dev nD) : W3 m ρ c (Proc.devRef .tc main_v12) = invDegOf (dstOf (A1 m c)) := (keep1_v12 (W2 m ρ c)).trans (b2_inv m ρ c)
theorem b3_a8 (c : Dev nD) : W3 m ρ c (Proc.devRef .tc main_arg8) = A8 m c := (keep1_arg8 (W2 m ρ c)).trans (b2_a8 m ρ c)
theorem b3_a9 (c : Dev nD) : W3 m ρ c (Proc.devRef .tc main_arg9) = A9 m c := (keep1_arg9 (W2 m ρ c)).trans (b2_a9 m ρ c)
theorem b3_a10 (c : Dev nD) : W3 m ρ c (Proc.devRef .tc main_arg10) = A10 m c := (keep1_arg10 (W2 m ρ c)).trans (b2_a10 m ρ c)
theorem b3_a11 (c : Dev nD) : W3 m ρ c (Proc.devRef .tc main_arg11) = A11 m c := (keep1_arg11 (W2 m ρ c)).trans (b2_a11 m ρ c)
theorem b3_a12 (c : Dev nD) : W3 m ρ c (Proc.devRef .tc main_arg12) = A12 m c := (keep1_arg12 (W2 m ρ c)).trans (b2_a12 m ρ c)

/-- The second region leaves the second hidden state in its output array. -/
theorem b4_h (c : Dev nD) : W4 m ρ c (Proc.devRef .tc main_v40) = H2 m c := by
  refine (W4_arr m ρ c 5).trans ((Layer1.final (V3 m ρ) c).trans ?_)
  show Cert.Sage.convRelu (W3 m ρ c (Proc.devRef .tc main_v38)) (W3 m ρ c (Proc.devRef .tc main_v26)) (W3 m ρ c (Proc.devRef .tc main_arg5)) (W3 m ρ c (Proc.devRef .tc main_arg6)) (W3 m ρ c (Proc.devRef .tc main_v39)) = _
  rw [b3_mean, b3_h, b3_a5, b3_a6, b3_row]
  rfl
theorem b4_src (c : Dev nD) : W4 m ρ c (Proc.devRef .tc main_v1) = srcOf (A1 m c) := (W4_of_ne m ρ c main_v1 (by decide)).trans (b3_src m ρ c)
theorem b4_dst (c : Dev nD) : W4 m ρ c (Proc.devRef .tc main_v3) = dstOf (A1 m c) := (W4_of_ne m ρ c main_v3 (by decide)).trans (b3_dst m ρ c)
theorem b4_inv (c : Dev nD) : W4 m ρ c (Proc.devRef .tc main_v12) = invDegOf (dstOf (A1 m c)) := (W4_of_ne m ρ c main_v12 (by decide)).trans (b3_inv m ρ c)
theorem b4_a8 (c : Dev nD) : W4 m ρ c (Proc.devRef .tc main_arg8) = A8 m c := (W4_of_ne m ρ c main_arg8 (by decide)).trans (b3_a8 m ρ c)
theorem b4_a9 (c : Dev nD) : W4 m ρ c (Proc.devRef .tc main_arg9) = A9 m c := (W4_of_ne m ρ c main_arg9 (by decide)).trans (b3_a9 m ρ c)
theorem b4_a10 (c : Dev nD) : W4 m ρ c (Proc.devRef .tc main_arg10) = A10 m c := (W4_of_ne m ρ c main_arg10 (by decide)).trans (b3_a10 m ρ c)
theorem b4_a11 (c : Dev nD) : W4 m ρ c (Proc.devRef .tc main_arg11) = A11 m c := (W4_of_ne m ρ c main_arg11 (by decide)).trans (b3_a11 m ρ c)
theorem b4_a12 (c : Dev nD) : W4 m ρ c (Proc.devRef .tc main_arg12) = A12 m c := (W4_of_ne m ρ c main_arg12 (by decide)).trans (b3_a12 m ρ c)

/-! ## After the third stretch (the third region's entry) -/

theorem b5_mean (c : Dev nD) : W5 m ρ c (Proc.devRef .tc main_v52) = meanOf (H2 m c) (srcOf (A1 m c)) (dstOf (A1 m c)) (invDegOf (dstOf (A1 m c))) := by
  refine (s2_mean (W4 m ρ c)).trans ?_
  rw [b4_h, b4_src, b4_dst, b4_inv]
theorem b5_row (c : Dev nD) : W5 m ρ c (Proc.devRef .tc main_v53) = rowOf (A10 m c) := by
  refine (s2_row (W4 m ρ c)).trans ?_
  rw [b4_a10]
theorem b5_h (c : Dev nD) : W5 m ρ c (Proc.devRef .tc main_v40) = H2 m c := (keep2_v40 (W4 m ρ c)).trans (b4_h m ρ c)
theorem b5_a8 (c : Dev nD) : W5 m ρ c (Proc.devRef .tc main_arg8) = A8 m c := (keep2_arg8 (W4 m ρ c)).trans (b4_a8 m ρ c)
theorem b5_a9 (c : Dev nD) : W5 m ρ c (Proc.devRef .tc main_arg9) = A9 m c := (keep2_arg9 (W4 m ρ c)).trans (b4_a9 m ρ c)
theorem b5_a11 (c : Dev nD) : W5 m ρ c (Proc.devRef .tc main_arg11) = A11 m c := (keep2_arg11 (W4 m ρ c)).trans (b4_a11 m ρ c)
theorem b5_a12 (c : Dev nD) : W5 m ρ c (Proc.devRef .tc main_arg12) = A12 m c := (keep2_arg12 (W4 m ρ c)).trans (b4_a12 m ρ c)

/-- The third region leaves the third hidden state in its output array. -/
theorem b6_h (c : Dev nD) : W6 m ρ c (Proc.devRef .tc main_v54) = H3 m c := by
  refine (W6_arr m ρ c 5).trans ((Layer2.final (V5 m ρ) c).trans ?_)
  show Cert.Sage.conv (W5 m ρ c (Proc.devRef .tc main_v52)) (W5 m ρ c (Proc.devRef .tc main_v40)) (W5 m ρ c (Proc.devRef .tc main_arg8)) (W5 m ρ c (Proc.devRef .tc main_arg9)) (W5 m ρ c (Proc.devRef .tc main_v53)) = _
  rw [b5_mean, b5_h, b5_a8, b5_a9, b5_row]
  rfl
theorem b6_a11 (c : Dev nD) : W6 m ρ c (Proc.devRef .tc main_arg11) = A11 m c := (W6_of_ne m ρ c main_arg11 (by decide)).trans (b5_a11 m ρ c)
theorem b6_a12 (c : Dev nD) : W6 m ρ c (Proc.devRef .tc main_arg12) = A12 m c := (W6_of_ne m ρ c main_arg12 (by decide)).trans (b5_a12 m ρ c)

/-! ## After the fourth stretch (the head's entry), the head, and the last stretch -/

theorem b7_w (c : Dev nD) : W7 m ρ c (Proc.devRef .tc main_v57) = padW (F := Ideal) (A11 m c) := by
  refine (s3_w (W6 m ρ c)).trans ?_
  rw [b6_a11]
theorem b7_b (c : Dev nD) : W7 m ρ c (Proc.devRef .tc main_v60) = padB (F := Ideal) (A12 m c) := by
  refine (s3_b (W6 m ρ c)).trans ?_
  rw [b6_a12]
theorem b7_h (c : Dev nD) : W7 m ρ c (Proc.devRef .tc main_v54) = H3 m c := (keep3_v54 (W6 m ρ c)).trans (b6_h m ρ c)

/-- The head's region leaves the head's output in its output array. -/
theorem b8_o (c : Dev nD) : W8 m ρ c (Proc.devRef .tc main_v61) = Cert.Sage.head (H3 m c) (padW (F := Ideal) (A11 m c)) (padB (F := Ideal) (A12 m c)) := by
  refine (W8_arr m ρ c 3).trans ((Head.final (V7 m ρ) c).trans ?_)
  show Cert.Sage.head (W7 m ρ c (Proc.devRef .tc main_v54)) (W7 m ρ c (Proc.devRef .tc main_v57)) (W7 m ρ c (Proc.devRef .tc main_v60)) = _
  rw [b7_h, b7_w, b7_b]

/-- THE RESULT BUFFER at the end of the run: the kernel's value of the thirteen arguments as launched. -/
theorem result (c : Dev nD) : W9 m ρ c (Proc.devRef .tc main_v63)
    = kernelOut (A0 m c) (A1 m c) (A2 m c) (A3 m c) (A4 m c) (A5 m c) (A6 m c) (A7 m c) (A8 m c) (A9 m c) (A10 m c) (A11 m c) (A12 m c) := by
  refine (s4_out (W8 m ρ c)).trans ?_
  rw [b8_o]
  rfl

end Cert.KernelIdeal.Fold

end
-- ==== Proof.Bridge.lean ====
/-
  The kernel's layers are the reference's stages.

  At any hidden state `h` and edge array `e`, the kernel forms the aggregated mean as
  `(Σ_{edges into r} h[src]) · (1 / max(deg r, 1))` and feeds it with `h` to its tiled layer; the reference forms
  `(Σ_{edges into r} h[src]) / max(deg r, 1)` and applies two whole matrix products, the bias and the clip. Entry by
  entry these agree: the sums over the edges and the degrees are the same terms on both sides (never opened), the
  product with the reciprocal of `max(deg r, 1) ≥ 1` is the quotient on every extended real, and both matrix products
  read at `(r, q)` are `Σₖ a[r,k] · w[k,q]`. So each layer of the kernel IS the reference's stage at the same `h`,
  and nesting the three layers and the head gives the reference's result.
-/
import proofs.«111139_j85126251807613_1_alg».proof.Proof.Gen.ReferenceIdeal.Read
import proofs.«111139_j85126251807613_1_alg».proof.Proof.Spec
import proofs.«111139_j85126251807613_1_alg».proof.Proof.Glue
import proofs.«111139_j85126251807613_1_alg».proof.Proof.KernelValue
import Idealize.ShloMosaic.Lib.IdealHost

noncomputable section

namespace Cert.Bridge

open Cert.ReferenceIdeal Cert.ReferenceIdeal.Gen Cert.ReferenceIdeal.Read Idealize.ShloMosaic Idealize.ShloMosaic.TcCoe Idealize.SL.Sem
open Cert.KernelIdeal.Glue Cert.KernelIdeal.Pad

/-! ## The kernel's spreads of the reciprocal degree, read at an index -/

/-- A 50000 × 1 column spread along the rows, at `(r, q)`: the column's entry `(r, 0)`. -/
theorem spreadCol_apply {α : Type} (y : Cert.KernelIdeal.S50000x1.Idx → α) (p : S50000x128.Idx) :
    broadcastInDim Cert.KernelIdeal.S50000x128 ![0, 1] Cert.KernelIdeal.Facts₀.bcast_S50000x1_S50000x128_0_1 y p = y (idx_main_v21 p) :=
  broadcastInDim_apply _ Cert.KernelIdeal.Facts₀.bcast_S50000x1_S50000x128_0_1 y p (idx_main_v21 p) (fun a => match a with
    | ⟨0, _⟩ => by show (p 0).val = if (50000 : Nat) = 1 then 0 else (p 0).val; rw [if_neg (by decide)]
    | ⟨1, _⟩ => by show 0 = if (1 : Nat) = 1 then 0 else (p 1).val; rw [if_pos rfl])

/-- A vector over the nodes as a 50000 × 1 column, at `(r, 0)`: the vector's entry `r`. -/
theorem column_apply {α : Type} (y : Cert.KernelIdeal.S50000.Idx → α) (q : S50000x1.Idx) :
    broadcastInDim Cert.KernelIdeal.S50000x1 ![0] Cert.KernelIdeal.Facts₀.bcast_S50000_S50000x1_0 y q = y (idx_main_v20 q) :=
  broadcastInDim_apply _ Cert.KernelIdeal.Facts₀.bcast_S50000_S50000x1_0 y q (idx_main_v20 q) (fun a => match a with
    | ⟨0, _⟩ => by show (q 0).val = if (50000 : Nat) = 1 then 0 else (q 0).val; rw [if_neg (by decide)])

/-! ## The mean -/

variable (h : (⟨S50000x128, .f32⟩ : BufTy).Contents (Elt Ideal)) (e : (⟨S2x800000, .i32⟩ : BufTy).Contents (Elt Ideal))

/-- The sums over the edges are one term on both sides. -/
theorem agg_eq : aggOf (F := Ideal) h (srcOf e) (dstOf e) = val_main_v13 (F := Ideal) h e := rfl
/-- So are the degrees. -/
theorem rawDeg_eq : rawDegOf (F := Ideal) (dstOf e) = val_main_v17 (F := Ideal) e := rfl

/-- The reciprocal-degree column at `(r, 0)`, for ANY degree vector `D`: `1 / max(D r, 1)`. -/
theorem recipCol_apply (D : FVec Ideal Cert.KernelIdeal.S50000 .f32) (q : S50000x1.Idx) :
    broadcastInDim Cert.KernelIdeal.S50000x1 ![0] Cert.KernelIdeal.Facts₀.bcast_S50000_S50000x1_0
        (Host.divf (F := Ideal) (broadcastInDim Cert.KernelIdeal.S50000 ![] Cert.KernelIdeal.Facts₀.bcast_S_S50000 (constant (F := Ideal) Cert.KernelIdeal.S_ .f32 0x3F800000#32))
          (maximumf (F := Ideal) D (broadcastInDim Cert.KernelIdeal.S50000 ![] Cert.KernelIdeal.Facts₀.bcast_S_S50000 (constant (F := Ideal) Cert.KernelIdeal.S_ .f32 0x3F800000#32)))) q
      = Ideal.div 1 (max (D (idx_main_v20 q)) 1) := by
  rw [column_apply]
  show Ideal.div (Ideal.ofBits .f32 0x3F800000#32) (max (D _) (Ideal.ofBits .f32 0x3F800000#32)) = _
  rw [Ideal.ofBits_one_f32]

/-- Sum times a spread column, at `(r, q)`, for ANY sum array `A` and column `inv`. -/
theorem timesCol_apply (A : FVec Ideal Cert.KernelIdeal.S50000x128 .f32) (inv : FVec Ideal Cert.KernelIdeal.S50000x1 .f32) (p : S50000x128.Idx) :
    mulf (F := Ideal) A (broadcastInDim Cert.KernelIdeal.S50000x128 ![0, 1] Cert.KernelIdeal.Facts₀.bcast_S50000x1_S50000x128_0_1 inv) p
      = A p * inv (idx_main_v21 p) := by
  show A p * (broadcastInDim Cert.KernelIdeal.S50000x128 ![0, 1] Cert.KernelIdeal.Facts₀.bcast_S50000x1_S50000x128_0_1 inv) p = _
  rw [spreadCol_apply]

/-- The reference's floor of the degree is the constant one. -/
theorem one_at (r : S50000.Idx) : val_main_v18 (F := Ideal) r = 1 := by
  rw [val_main_v18_apply, val_main_cst_3_apply]
  exact Ideal.ofBits_one_f32

/-- The kernel's mean (sum times reciprocal degree) is the reference's (sum over degree), entry by entry: with the sum
    over the edges `A` and the degree `D` the same arrays on both sides, `A[p] · (1 / max(D r, 1)) = A[p] / max(D r, 1)`. -/
theorem mean_eq : meanOf (F := Ideal) h (srcOf e) (dstOf e) (invDegOf (dstOf e)) = val_main_v22 (F := Ideal) h e := by
  funext p
  rw [val_main_v22_apply, val_main_v21_apply, val_main_v20_apply, val_main_v19_apply, one_at, ← agg_eq h e, ← rawDeg_eq e]
  unfold meanOf invDegOf degOf
  generalize aggOf (F := Ideal) h (srcOf e) (dstOf e) = A
  generalize rawDegOf (F := Ideal) (dstOf e) = D
  rw [timesCol_apply, recipCol_apply]
  exact Cert.Sage.mul_recip_max _ _

/-! ## A layer -/

theorem lix_eq (i : S50000x128.Idx) (k : Fin 128) : Cert.Sage.lix i k = lidx_main_v23 i k :=
  funext fun a => Fin.ext (by match a with | ⟨0, _⟩ => rfl | ⟨1, _⟩ => rfl)
theorem rix_eq (i : S50000x128.Idx) (k : Fin 128) : Cert.Sage.rix i k = ridx_main_v23 i k :=
  funext fun a => Fin.ext (by match a with | ⟨0, _⟩ => rfl | ⟨1, _⟩ => rfl)

/-- A bias as a row, at `(0, q)`: the bias's entry `q`. -/
theorem row_apply (b : (⟨S128, .f32⟩ : BufTy).Contents (Elt Ideal)) (i : S50000x128.Idx) :
    rowOf (F := Ideal) b (Cert.Sage.bix i) = b (idx_main_v26 (idx_main_v27 i)) := by
  unfold rowOf
  exact shapeCast_apply b Cert.KernelIdeal.Facts₀.shapeCasts_S128_S1x128 (Cert.Sage.bix i) (idx_main_v26 (idx_main_v27 i))
    (by rewrite [Shape.rowMajor_val_two, Shape.rowMajor_val_one]; show (i 1).val = 0 * 128 + (i 1).val; omega)

variable (wn wr : (⟨S128x128, .f32⟩ : BufTy).Contents (Elt Ideal)) (b : (⟨S128, .f32⟩ : BufTy).Contents (Elt Ideal))

/-- The last layer of the kernel at `h` is the reference's unclipped stage at `h`. -/
theorem layerLast_eq : layerLast h e wn wr b = val_main_v28 (F := Ideal) h e wn wr b := by
  funext i
  rw [val_main_v28_apply, val_main_v25_apply, val_main_v23_apply, val_main_v24_apply, val_main_v27_apply, val_main_v26_apply,
    ← mean_eq h e]
  unfold layerLast
  generalize meanOf (F := Ideal) h (srcOf e) (dstOf e) (invDegOf (dstOf e)) = M
  show (∑ k : Fin 128, M (Cert.Sage.lix i k) * wn (Cert.Sage.rix i k)) + (∑ k : Fin 128, h (Cert.Sage.lix i k) * wr (Cert.Sage.rix i k))
      + rowOf (F := Ideal) b (Cert.Sage.bix i) = _
  rw [row_apply]
  simp only [lix_eq, rix_eq]
  rfl

/-- An inner layer of the kernel at `h` is the reference's clipped stage at `h`. -/
theorem layerRelu_eq : layerRelu h e wn wr b = val_main_v29 (F := Ideal) h e wn wr b := by
  funext i
  rw [val_main_v29_apply, ← layerLast_eq h e wn wr b, val_main_call0_v0_apply, val_main_call0_cst_apply]
  show max (layerLast h e wn wr b i) 0 = max (layerLast h e wn wr b i) (Ideal.ofBits .f32 0x00000000#32)
  rw [Ideal.ofBits_zero_f32]

/-! ## The head, and the whole value -/

/-- Entry `(r, 0)` of a node array, for the node `r` of the result index `i`. -/
abbrev col0 (i : S50000.Idx) : S50000x128.Idx := fun a => match a with
  | ⟨0, _⟩ => ⟨(i 0).val, (i 0).isLt⟩
  | ⟨1, _⟩ => ⟨0, (by decide : (0 : Nat) < 128)⟩

/-- Column 0 of an array as a vector over the nodes, at `r`: the array's entry `(r, 0)`. -/
theorem col0Of_apply (o : (⟨S50000x128, .f32⟩ : BufTy).Contents (Elt Ideal)) (i : S50000.Idx) :
    col0Of (F := Ideal) o i = o (col0 i) := by
  unfold col0Of
  rw [shapeCast_apply _ Cert.KernelIdeal.Facts₀.shapeCasts_S50000x1_S50000 i (idx_main_v85 i)
    (by rewrite [Shape.rowMajor_val_two, Shape.rowMajor_val_one]; have h0 : (i 0).val < 50000 := (i 0).isLt; show ((i 0).val) / 1 * 1 + 0 = (i 0).val; omega)]
  exact extractStridedSlice_apply ![0, 0] o Cert.KernelIdeal.Facts₀.slices_S50000x128_S50000x1_0_0 (idx_main_v85 i) (col0 i) (fun a => match a with
    | ⟨0, _⟩ => by show (i 0).val = 0 + (i 0).val / 1; omega
    | ⟨1, _⟩ => by show 0 = 0 + 0; rfl)

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal))

/-- The head over the padded operands, column 0 kept, is the reference's product with the weight column plus the bias:
    at node `r` both are `(Σₖ h[r,k] · w[k,0]) + b[0]`. -/
theorem head_eq : headOut (val_main_v80 (F := Ideal) x0 x1 x2 x3 x4 x5 x6 x7 x8 x9 x10) x11 x12
    = val_main_v85 (F := Ideal) x0 x1 x2 x3 x4 x5 x6 x7 x8 x9 x10 x11 x12 := by
  funext i
  rw [val_main_v85_apply, val_main_v84_apply, val_main_v81_apply, val_main_v83_apply, val_main_v82_apply]
  generalize val_main_v80 (F := Ideal) x0 x1 x2 x3 x4 x5 x6 x7 x8 x9 x10 = H
  unfold headOut
  rw [col0Of_apply]
  have hi0 : (i 0).val < 50000 := (i 0).isLt
  have hl : ∀ k : Fin 128, Cert.Sage.lix (col0 i) k = lidx_main_v81 (idx_main_v85 i) k := fun k =>
    funext fun a => Fin.ext (by
      match a with
      | ⟨0, _⟩ => show (i 0).val = (i 0).val / 1; omega
      | ⟨1, _⟩ => rfl)
  have hw : ∀ k : Fin 128, padW (F := Ideal) x11 (Cert.Sage.rix (col0 i) k) = x11 (ridx_main_v81 (idx_main_v85 i) k) := fun k =>
    (padW_col0 (F := Ideal) x11 k).trans (congrArg x11 (funext fun a => Fin.ext (by
      match a with
      | ⟨0, _⟩ => rfl
      | ⟨1, _⟩ => rfl)))
  have hb : padB (F := Ideal) x12 (Cert.Sage.bix (col0 i)) = x12 (idx_main_v82 (idx_main_v83 (idx_main_v85 i))) :=
    (padB_00 (F := Ideal) x12).trans (congrArg x12 (funext fun a => Fin.ext (by
      match a with
      | ⟨0, _⟩ => rfl)))
  show (∑ k : Fin 128, H (Cert.Sage.lix (col0 i) k) * padW (F := Ideal) x11 (Cert.Sage.rix (col0 i) k))
      + padB (F := Ideal) x12 (Cert.Sage.bix (col0 i)) = _
  simp only [hl, hw, hb]
  rfl

/-- THE TWO PROGRAMS COMPUTE ONE FUNCTION: the kernel's nested layers and head are the reference's stages, layer by layer. -/
theorem kernelOut_eq : kernelOut x0 x1 x2 x3 x4 x5 x6 x7 x8 x9 x10 x11 x12
    = val_main_v85 (F := Ideal) x0 x1 x2 x3 x4 x5 x6 x7 x8 x9 x10 x11 x12 := by
  unfold kernelOut
  rw [layerRelu_eq, layerRelu_eq, layerLast_eq]
  exact head_eq x0 x1 x2 x3 x4 x5 x6 x7 x8 x9 x10 x11 x12

end Cert.Bridge

end
-- ==== Proof.lean ====
/-
  A three-layer graph convolution with a classifier head, tiled on the matrix unit, against its plain reference:
  over the extended reals the two programs compute one function of their thirteen arguments.

  Both programs aggregate, for every node, the rows of the hidden state at its in-neighbours (a gather at the edges'
  sources, a scatter-add at their destinations) and divide by `max(deg, 1)`; both then apply
  `mean · W_nbr + h · W_root + b`, clip the first two layers at zero, and finish with `h · w_cls + b_cls`. They differ
  in three ways, none of which changes a value over the extended reals:
    · the kernel forms `1 / max(deg, 1)` once and multiplies, the reference divides: `max(deg, 1) ≥ 1` is never
      zero, so the product with the reciprocal IS the quotient, at the infinities too (Proof/Spec.lean);
    · the kernel computes each layer tile by tile (25 tiles of 2000 nodes) with operands narrowed to bfloat16 into a
      zero accumulator: narrowing is the identity here, a row of a layer depends only on the same row of its operands,
      and the tiles cover the nodes (Proof/BlockOps.lean, Proof/Layer0.lean … Proof/Head.lean);
    · the kernel pads the head's weight column and bias into 128-wide arrays of zeros and keeps column 0 of the
      128-wide product: column 0 of the padded weight is the weight, entry `(0, 0)` of the padded row the bias
      (Proof/Pad.lean).
  The gather, the scatter-add and the degrees are the same terms in both programs and are never opened; no finiteness of
  the inputs is used. The kernel's run is read back boundary by boundary to its nested layers (Proof/Fold.lean over the
  launch of Proof/RunNamed.lean), the reference's run is its generated one, and Proof/Bridge.lean identifies the two
  values layer by layer. Nothing was rewritten by the idealization, so the preservation claim is `True`.
-/
import proofs.«111139_j85126251807613_1_alg».proof.Defs
import proofs.«111139_j85126251807613_1_alg».proof.Proof.Gen.Kernel
import proofs.«111139_j85126251807613_1_alg».proof.Proof.Gen.Kernel.Skeleton
import proofs.«111139_j85126251807613_1_alg».proof.Proof.Gen.Kernel.Launch
import proofs.«111139_j85126251807613_1_alg».proof.Proof.Gen.Kernel.Points
import proofs.«111139_j85126251807613_1_alg».proof.Proof.Gen.Kernel.Frame
import proofs.«111139_j85126251807613_1_alg».proof.Proof.Gen.KernelIdeal
import proofs.«111139_j85126251807613_1_alg».proof.Proof.Gen.KernelIdeal.Skeleton
import proofs.«111139_j85126251807613_1_alg».proof.Proof.Gen.KernelIdeal.Launch
import proofs.«111139_j85126251807613_1_alg».proof.Proof.Gen.KernelIdeal.Points
import proofs.«111139_j85126251807613_1_alg».proof.Proof.Gen.KernelIdeal.Frame
import proofs.«111139_j85126251807613_1_alg».proof.Proof.Gen.ReferenceIdeal
import proofs.«111139_j85126251807613_1_alg».proof.Proof.Gen.Pre_finite_inputs
import proofs.«111139_j85126251807613_1_alg».proof.Proof.Gen.ReferenceIdeal.Run
import proofs.«111139_j85126251807613_1_alg».proof.Proof.Gen.ReferenceIdeal.Read
import proofs.«111139_j85126251807613_1_alg».proof.Proof.RunNamed
import proofs.«111139_j85126251807613_1_alg».proof.Proof.Fold
import proofs.«111139_j85126251807613_1_alg».proof.Proof.Bridge
import Idealize.ShloMosaic.Adequacy
import Idealize.ShloMosaic.Init

noncomputable section

namespace Cert.Proof

open Idealize.ShloMosaic Idealize.SL.Sem

/-- The five claims: the three programs run and keep their arguments (the kernel's two by their generated frames, the
    reference's by its generated run); the idealization rewrote nothing; and from memories agreeing on the arguments both
    idealized programs end with the same result, the nested layers and head of the arguments. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2) (Cert.ReferenceIdeal.Value.run (F := Ideal) m ρ)
  · intro m ρ m' ρ' _ hagree
    refine ⟨fun c => Cert.KernelIdeal.Glue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
    · exact (θ_run Cert.KernelIdeal.defs _ _).mono (fun r h c => ⟨(h c).1.trans (Cert.KernelIdeal.Fold.result m ρ c), (h c).2⟩)
        (Cert.KernelIdeal.Launched.run_named (F := Ideal) m ρ)
    · refine (θ_run Cert.ReferenceIdeal.defs _ _).mono (fun r h c => ⟨(h c).1.trans ?_, (h c).2⟩)
        (Cert.ReferenceIdeal.Value.run (F := Ideal) m' ρ')
      obtain ⟨e0, e1, e2, e3, e4, e5, e6, e7, e8, e9, e10, e11, e12⟩ := hagree c
      rw [Cert.ReferenceIdeal.Read.val_main_v85_eq, e0, e1, e2, e3, e4, e5, e6, e7, e8, e9, e10, e11, e12]
      exact (Cert.Bridge.kernelOut_eq _ _ _ _ _ _ _ _ _ _ _ _ _).symm⟩

end Cert.Proof

end
